-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S16x16 : Shape := ⟨2, ![16, 16]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) (main_arg1 : IVec S16x16 32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S16x16 : Shape := ⟨2, ![16, 16]⟩
abbrev S16x1 : Shape := ⟨2, ![16, 1]⟩
abbrev S_ : Shape := ⟨0, ![]⟩
abbrev S16x15 : Shape := ⟨2, ![16, 15]⟩
abbrev S2048 : Shape := ⟨1, ![2048]⟩
abbrev S1x1x2048 : Shape := ⟨3, ![1, 1, 2048]⟩
abbrev S16x16x1 : Shape := ⟨3, ![16, 16, 1]⟩
abbrev S16x16x2048 : Shape := ⟨3, ![16, 16, 2048]⟩
abbrev S16x8x128 : Shape := ⟨3, ![16, 8, 128]⟩
abbrev S1x512x512 : Shape := ⟨3, ![1, 512, 512]⟩
abbrev S1x16x512 : Shape := ⟨3, ![1, 16, 512]⟩
abbrev S1x8x128 : Shape := ⟨3, ![1, 8, 128]⟩
abbrev S8x128 : Shape := ⟨2, ![8, 128]⟩
abbrev S16x512 : Shape := ⟨2, ![16, 512]⟩
abbrev S512x16 : Shape := ⟨2, ![512, 16]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 26
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S16x16, .i32⟩
  | .hbm, ⟨2, _⟩ => ⟨S16x1, .i32⟩
  | .hbm, ⟨3, _⟩ => ⟨S_, .i32⟩
  | .hbm, ⟨4, _⟩ => ⟨S16x1, .i32⟩
  | .hbm, ⟨5, _⟩ => ⟨S16x15, .i32⟩
  | .hbm, ⟨6, _⟩ => ⟨S16x16, .i32⟩
  | .hbm, ⟨7, _⟩ => ⟨S16x16, .i32⟩
  | .hbm, ⟨8, _⟩ => ⟨S2048, .i32⟩
  | .hbm, ⟨9, _⟩ => ⟨S1x1x2048, .i32⟩
  | .hbm, ⟨10, _⟩ => ⟨S16x16x1, .i32⟩
  | .hbm, ⟨11, _⟩ => ⟨S16x16x2048, .i32⟩
  | .hbm, ⟨12, _⟩ => ⟨S16x16x2048, .i32⟩
  | .hbm, ⟨13, _⟩ => ⟨S16x16x2048, .i1⟩
  | .hbm, ⟨14, _⟩ => ⟨S1x1x2048, .i32⟩
  | .hbm, ⟨15, _⟩ => ⟨S16x16x1, .i32⟩
  | .hbm, ⟨16, _⟩ => ⟨S16x16x2048, .i32⟩
  | .hbm, ⟨17, _⟩ => ⟨S16x16x2048, .i32⟩
  | .hbm, ⟨18, _⟩ => ⟨S16x16x2048, .i1⟩
  | .hbm, ⟨19, _⟩ => ⟨S16x16x2048, .i1⟩
  | .hbm, ⟨20, _⟩ => ⟨S16x16x2048, .f32⟩
  | .hbm, ⟨21, _⟩ => ⟨S16x8x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x16x512, .f32⟩
  | .local _ .vmem, ⟨3, _⟩ => ⟨S1x16x512, .f32⟩
  | .local _ .vmem, ⟨4, _⟩ => ⟨S1x16x512, .f32⟩
  | .local _ .vmem, ⟨5, _⟩ => ⟨S1x16x512, .f32⟩
  | .local _ .vmem, ⟨6, _⟩ => ⟨S1x8x128, .f32⟩
  | .local _ .vmem, ⟨7, _⟩ => ⟨S1x8x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  slices_S16x16_S16x1_0_0 : S16x16.Slices ![0, 0] S16x1
  bcast_S_S16x1 : S_.BroadcastsInDim S16x1 (![] : Fin 0 → Fin S16x1.rank)
  slices_S16x16_S16x15_0_0 : S16x16.Slices ![0, 0] S16x15
  concatenates_S16x1_S16x15_S16x16_d1 : Shape.Concatenates [S16x1, S16x15] S16x16 1
  bcast_S2048_S1x1x2048_2 : S2048.BroadcastsInDim S1x1x2048 (![2] : Fin 1 → Fin S1x1x2048.rank)
  bcast_S16x16_S16x16x1_0_1 : S16x16.BroadcastsInDim S16x16x1 (![0, 1] : Fin 2 → Fin S16x16x1.rank)
  bcast_S1x1x2048_S16x16x2048_0_1_2 : S1x1x2048.BroadcastsInDim S16x16x2048 (![0, 1, 2] : Fin 3 → Fin S16x16x2048.rank)
  bcast_S16x16x1_S16x16x2048_0_1_2 : S16x16x1.BroadcastsInDim S16x16x2048 (![0, 1, 2] : Fin 3 → Fin S16x16x2048.rank)
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  transposes_S16x512_p1_0_S512x16 : S16x512.Transposes [1, 0] S512x16
  natLt_1_32 : 1 < 32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  reducesTo_S16x8x128_S_d0_1_2 : S16x8x128.ReducesTo [0, 1, 2] S_
  h_S_ : 0 < S_.numel
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S16x2048x2048.size a
  hwx0_0 : ∀ i : grid0.Coords, EltTy.bits .f32 = 32 ∨ (Rect.block (s := S16x2048x2048) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x512.size a ≤ S16x16x2048.size a
  hwx0_1 : ∀ i : grid0.Coords, EltTy.bits .f32 = 32 ∨ (Rect.block (s := S16x16x2048) S1x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S16x16x2048.size a
  hwx0_2 : ∀ i : grid0.Coords, EltTy.bits .f32 = 32 ∨ (Rect.block (s := S16x16x2048) S1x16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S16x16 : Shape := ⟨2, ![16, 16]⟩
abbrev S16x1 : Shape := ⟨2, ![16, 1]⟩
abbrev S_ : Shape := ⟨0, ![]⟩
abbrev S16x15 : Shape := ⟨2, ![16, 15]⟩
abbrev S2048 : Shape := ⟨1, ![2048]⟩
abbrev S1x1x2048 : Shape := ⟨3, ![1, 1, 2048]⟩
abbrev S16x16x1 : Shape := ⟨3, ![16, 16, 1]⟩
abbrev S16x16x2048 : Shape := ⟨3, ![16, 16, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x16, .i32⟩
  | .hbm, ⟨2, _⟩ => ⟨S16x1, .i32⟩
  | .hbm, ⟨3, _⟩ => ⟨S_, .i32⟩
  | .hbm, ⟨4, _⟩ => ⟨S16x1, .i32⟩
  | .hbm, ⟨5, _⟩ => ⟨S16x15, .i32⟩
  | .hbm, ⟨6, _⟩ => ⟨S16x16, .i32⟩
  | .hbm, ⟨7, _⟩ => ⟨S16x16, .i32⟩
  | .hbm, ⟨8, _⟩ => ⟨S2048, .i32⟩
  | .hbm, ⟨9, _⟩ => ⟨S1x1x2048, .i32⟩
  | .hbm, ⟨10, _⟩ => ⟨S16x16x1, .i32⟩
  | .hbm, ⟨11, _⟩ => ⟨S16x16x2048, .i32⟩
  | .hbm, ⟨12, _⟩ => ⟨S16x16x2048, .i32⟩
  | .hbm, ⟨13, _⟩ => ⟨S16x16x2048, .i1⟩
  | .hbm, ⟨14, _⟩ => ⟨S1x1x2048, .i32⟩
  | .hbm, ⟨15, _⟩ => ⟨S16x16x1, .i32⟩
  | .hbm, ⟨16, _⟩ => ⟨S16x16x2048, .i32⟩
  | .hbm, ⟨17, _⟩ => ⟨S16x16x2048, .i32⟩
  | .hbm, ⟨18, _⟩ => ⟨S16x16x2048, .i1⟩
  | .hbm, ⟨19, _⟩ => ⟨S16x16x2048, .i1⟩
  | .hbm, ⟨20, _⟩ => ⟨S16x16x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .i1⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩

abbrev nD : Nat := 1
abbrev τ : Topo := Topo.v7x

variable {F : FTy → Type} [FloatOps F]

class Facts₀ : Prop where
  slices_S16x16_S16x1_0_0 : S16x16.Slices ![0, 0] S16x1
  bcast_S_S16x1 : S_.BroadcastsInDim S16x1 (![] : Fin 0 → Fin S16x1.rank)
  slices_S16x16_S16x15_0_0 : S16x16.Slices ![0, 0] S16x15
  concatenates_S16x1_S16x15_S16x16_d1 : Shape.Concatenates [S16x1, S16x15] S16x16 1
  bcast_S2048_S1x1x2048_2 : S2048.BroadcastsInDim S1x1x2048 (![2] : Fin 1 → Fin S1x1x2048.rank)
  bcast_S16x16_S16x16x1_0_1 : S16x16.BroadcastsInDim S16x16x1 (![0, 1] : Fin 2 → Fin S16x16x1.rank)
  bcast_S1x1x2048_S16x16x2048_0_1_2 : S1x1x2048.BroadcastsInDim S16x16x2048 (![0, 1, 2] : Fin 3 → Fin S16x16x2048.rank)
  bcast_S16x16x1_S16x16x2048_0_1_2 : S16x16x1.BroadcastsInDim S16x16x2048 (![0, 1, 2] : Fin 3 → Fin S16x16x2048.rank)
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  dot_S16x16x2048_S16x16x2048_S16x2048x2048_1_1_2_2_0_0_wf : DotDims.WF S16x16x2048 S16x16x2048 S16x2048x2048 [1] [1] [2] [2] [0] [0]

variable [Facts₀]

def dot_S16x16x2048_S16x16x2048_S16x2048x2048_1_1_2_2_0_0 : DotDims S16x16x2048 S16x16x2048 S16x2048x2048 where
  lhsContracting := [1]
  rhsContracting := [1]
  lhsNonContracting := [2]
  rhsNonContracting := [2]
  lhsBatch := [0]
  rhsBatch := [0]
  wf := dot_S16x16x2048_S16x16x2048_S16x2048x2048_1_1_2_2_0_0_wf

class Facts : Prop extends Facts₀ where

variable [Facts]
-- ==== Proof.K.Body.lean ====
/-
  The kernel body on any whole staging buffers, in its two control cases.

  At a grid point (b, i, j) the body first asks whether i = 0 and j = 0. If so it stores a zero block into the output's
  staging buffer. In both cases it then loads the two membership blocks and the score block, computes the tile's
  contribution (a pure function of the three blocks), loads the output's staging buffer and stores back that buffer plus
  the contribution. So at a first point the buffer ends as a function of the three input blocks alone, and at every other
  point as a function of the three blocks and of what the buffer held before.

  Each run is stated as a pair: the list of pieces the stores leave in the output's buffer, and the proof that, from the
  three input buffers at given contents and the output buffer at given (or any) contents, the body runs to a state that
  holds the inputs unchanged and the output buffer overwritten by those pieces.
-/
import proofs.«123174_j446676599061_1_alg».proof.Proof.Gen.Kernel.Launch
import proofs.«123174_j446676599061_1_alg».proof.Proof.Gen.Kernel.Skeleton
import proofs.«123174_j446676599061_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition from the grid coordinates: the second and the third coordinate are both zero. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the grid of 16 × 4 × 4 points in row-major order it holds exactly at the points divisible by 16: the first
    point of each batch entry. -/
theorem isFirst_iff : ∀ t : Fin cfg0.N, isFirst (grid0.coords t) ↔ t.val % 16 = 0 :=
  (by decide +kernel : ∀ t : Fin grid0.N, isFirst (grid0.coords t) ↔ t.val % 16 = 0)

set_option maxHeartbeats 1000000 in
/-- THE FIRST POINT OF A BATCH ENTRY: the output's buffer, whatever it held, ends overwritten by the pieces `L`. -/
noncomputable def runFirst (c : Dev nD) (i : grid0.Coords)
    (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : isFirst i) (x3 : Vec F S1x512x512 .f32) (x4 x5 : Vec F S1x16x512 .f32) :
    { L : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ (∃ d, owns (c : Thread nD τ) arg6 fullShare d)
            ∗ (iprop(owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    simp only [k0_part1_eq_skeleton]
    unfold owns
    iintro ⟨⟨%f3, %hf3, H3⟩, ⟨%f4, %hf4, H4⟩, ⟨%f5, %hf5, H5⟩, ⟨%d6, %f6, -, H6⟩, Hk⟩
    obtain rfl := harg3.eq_unread hf3; obtain rfl := harg4.eq_unread hf4; obtain rfl := harg5.eq_unread hf5
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

set_option maxHeartbeats 1000000 in
/-- EVERY OTHER POINT: the output's buffer, holding `x6`, ends overwritten by the pieces `L` (which read `x6`). -/
noncomputable def runNext (c : Dev nD) (i : grid0.Coords)
    (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : ¬isFirst i) (x3 : Vec F S1x512x512 .f32) (x4 x5 : Vec F S1x16x512 .f32) (x6 : Vec F S1x8x128 .f32) :
    { L : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6
            ∗ (iprop(owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    simp only [k0_part1_eq_skeleton]
    unfold owns
    iintro ⟨⟨%f3, %hf3, H3⟩, ⟨%f4, %hf4, H4⟩, ⟨%f5, %hf5, H5⟩, ⟨%f6, %hf6, H6⟩, Hk⟩
    obtain rfl := harg3.eq_unread hf3; obtain rfl := harg4.eq_unread hf4; obtain rfl := harg5.eq_unread hf5; obtain rfl := harg6.eq_unread hf6
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.Kernel.Hand

end
-- ==== Proof.K.Frame.lean ====
/-
  The pipeline's proof data and the body obligation.

  The grid has 16 × 4 × 4 = 256 points in row-major order; point t belongs to batch entry t / 16. The three input windows
  are never written by the body, so each input's staging buffer holds its array's block at every point. The output
  window's block is the same for the sixteen points of a batch entry and is written back after the last of them, so its
  staging buffer carries an accumulator: `outsAt n` is what that buffer holds after the body at point n — the reset case's
  result when n is divisible by 16, else the accumulate case's result over `outsAt (n - 1)`.
-/
import proofs.«123174_j446676599061_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered, per core
variable (V : (c : Dev nD) → (b : Ref sig .tc) → Buf (Elt F) ((c : Thread nD τ).loc b))

/-! ## The windows' blocks and staging buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the region-entry one and whose body leaves the block in place. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated (the choice does not matter). -/
abbrev VO : View sig .tc .vmem S1x8x128 .f32 := (Memref.whole cc0_stg3_0 : Memref sig .tc .vmem S1x8x128 .f32).view
/-- Each window's current staging buffer at point `t`, as the pipeline passes it to the body, and its wholeness. -/
abbrev ms0 (t : Fin cfg0.N) : Memref sig .tc .vmem S1x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)

/-! ## What each case leaves in the output's buffer -/

omit V in
/-- The reset case's pieces tile the output's block, so they cover it. -/
theorem coverFirst (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : isFirst i) (x3 : Vec F S1x512x512 .f32) (x4 x5 : Vec F S1x16x512 .f32) (y : S1x8x128.Idx) :
    ∃ pc ∈ (runFirst c i arg3 harg3 arg4 harg4 arg5 harg5 arg6 harg6 hc x3 x4 x5).1, y ∈ pc.1.set :=
  View.cover_of_tiledL (runFirst c i arg3 harg3 arg4 harg4 arg5 harg5 arg6 harg6 hc x3 x4 x5).1 S1x8x128.size (by sl_kernel_rfl) y

omit V in
/-- What the reset case leaves in the output's buffer: its pieces read back. -/
def outFirst (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : isFirst i) (x3 : Vec F S1x512x512 .f32) (x4 x5 : Vec F S1x16x512 .f32) : Vec F S1x8x128 .f32 :=
  VO.read (Elt F) (VO.writes (Elt F) VO.junk (runFirst c i arg3 harg3 arg4 harg4 arg5 harg5 arg6 harg6 hc x3 x4 x5).1)

omit V in
/-- The accumulate case's pieces tile the output's block, so they cover it. -/
theorem coverNext (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : ¬isFirst i) (x3 : Vec F S1x512x512 .f32) (x4 x5 : Vec F S1x16x512 .f32) (x6 : Vec F S1x8x128 .f32) (y : S1x8x128.Idx) :
    ∃ pc ∈ (runNext c i arg3 harg3 arg4 harg4 arg5 harg5 arg6 harg6 hc x3 x4 x5 x6).1, y ∈ pc.1.set :=
  View.cover_of_tiledL (runNext c i arg3 harg3 arg4 harg4 arg5 harg5 arg6 harg6 hc x3 x4 x5 x6).1 S1x8x128.size (by sl_kernel_rfl) y

omit V in
/-- What the accumulate case leaves in the output's buffer: its pieces read back. -/
def outNext (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : ¬isFirst i) (x3 : Vec F S1x512x512 .f32) (x4 x5 : Vec F S1x16x512 .f32) (x6 : Vec F S1x8x128 .f32) : Vec F S1x8x128 .f32 :=
  VO.read (Elt F) (VO.writes (Elt F) VO.junk (runNext c i arg3 harg3 arg4 harg4 arg5 harg5 arg6 harg6 hc x3 x4 x5 x6).1)

/-! ## The accumulation, point by point -/

/-- What the output's staging buffer holds after the body at position `n`: the reset case at a position divisible by 16,
    else the accumulate case over what this leaves at `n - 1` (the buffer is not written back in between). -/
def outsAt (c : Dev nD) : (n : ℕ) → n < cfg0.N → Vec F S1x8x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((isFirst_iff ⟨0, hn⟩).mpr (Nat.zero_mod _)) (iblk V c 0 ⟨0, hn⟩) (iblk V c 1 ⟨0, hn⟩) (iblk V c 2 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((isFirst_iff ⟨n + 1, hn⟩).mpr h0) (iblk V c 0 ⟨n + 1, hn⟩) (iblk V c 1 ⟨n + 1, hn⟩) (iblk V c 2 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn))

/-- `outsAt` at a point divisible by 16. -/
theorem outsAt_first (c : Dev nD) (t : Fin cfg0.N) (h0 : t.val % 16 = 0) :
    outsAt V c t.val t.isLt = outFirst c (grid0.coords t) (ms0 t) (hs0 t) (ms1 t) (hs1 t) (ms2 t) (hs2 t) (ms3 t) (hs3 t) ((isFirst_iff t).mpr h0) (iblk V c 0 t) (iblk V c 1 t) (iblk V c 2 t) := by
  obtain ⟨n, hn⟩ := t
  cases n with
  | zero => exact rfl
  | succ n => exact (dif_pos h0).trans rfl

/-- `outsAt` at any other point: the accumulate case over what the point before left. -/
theorem outsAt_next (c : Dev nD) (t : Fin cfg0.N) (h0 : ¬t.val % 16 = 0) :
    outsAt V c t.val t.isLt = outNext c (grid0.coords t) (ms0 t) (hs0 t) (ms1 t) (hs1 t) (ms2 t) (hs2 t) (ms3 t) (hs3 t) (fun h => h0 ((isFirst_iff t).mp h)) (iblk V c 0 t) (iblk V c 1 t) (iblk V c 2 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its block and
    the output's at `outsAt`; the invariant the scoped rest and the generator register, which the body does not use;
    nothing owed. The score array is held whole; the membership array, read by windows 1 and 2, is held half and half. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outsAt V c t.val t.isLt
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = outsAt V c t.val t.isLt := by dsimp only [dat0]

theorem q0 (c : Dev nD) : (dat0 V c).q 0 = fullShare := by dsimp only [dat0]
theorem q1 (c : Dev nD) : (dat0 V c).q 1 = fullShare.left := by dsimp only [dat0]
theorem q2 (c : Dev nD) : (dat0 V c).q 2 = fullShare.right := by dsimp only [dat0]

theorem before0 (c : Dev nD) (t : Fin cfg0.N) (d) : (dat0 V c).before 0 t d = iblk V c 0 t :=
  before_in0 V (dat0 V c) (A_eq V c 0) (after0 V c) t d
theorem before1 (c : Dev nD) (t : Fin cfg0.N) (d) : (dat0 V c).before 1 t d = iblk V c 1 t :=
  before_in1 V (dat0 V c) (A_eq V c 1) (after1 V c) t d
theorem before2 (c : Dev nD) (t : Fin cfg0.N) (d) : (dat0 V c).before 2 t d = iblk V c 2 t :=
  before_in2 V (dat0 V c) (A_eq V c 2) (after2 V c) t d

/-- At a point not divisible by 16 the output's buffer holds what the body left at the point before: the point is not
    the first, and the buffer is written back only after points ≡ 15 (mod 16). -/
theorem before3_next (c : Dev nD) (t : Fin cfg0.N) (h0 : ¬t.val % 16 = 0) (d) :
    (dat0 V c).before 3 t d = outsAt V c (t.val - 1) (Nat.lt_of_le_of_lt (Nat.sub_le _ _) t.isLt) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t))

set_option maxHeartbeats 1600000 in
/-- The body at any point: the inputs' buffers hold their blocks; the point's position modulo 16 says which case it is
    in; in the accumulate case the output's buffer holds what the point before left; so that case's run applies. The
    invariant passes through unread and the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat0 V c).Φ t.succ = (dat0 V c).Φ t.castSucc from rfl,
    show (dat0 V c).owesAt () t.succ = (dat0 V c).owesAt () t.castSucc from rfl,
    after0, after1, after2, after3]
  by_cases h0 : t.val % 16 = 0
  · rw [outsAt_first V c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk V c 0 t) (iblk V c 1 t) (iblk V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _)
  · rw [outsAt_next V c t h0]
    simp only [before3_next V c t h0]
    unfold outNext
    iintro ⟨HΦ, Ho, ⟨%d0, H0⟩, ⟨%d1, H1⟩, ⟨%d2, H2⟩, ⟨%d3, H3⟩⟩
    iapply ((runNext c (grid0.coords t) _ _ _ _ _ _ _ _ (fun h => h0 ((isFirst_iff t).mp h)) (iblk V c 0 t) (iblk V c 1 t) (iblk V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverNext c _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.Shares.lean ====
/- One array behind two windows: the windows' arrays carved out of a core's unscoped buffers, and put back, when
   windows 1 and 2 of the pipeline read the same array and hold its full share as its two halves. -/
import proofs.«123174_j446676599061_1_alg».proof.Proof.Gen.Kernel.Launch
import Idealize.ShloMosaic.Lib.Pipeline.Frame
import Idealize.ShloMosaic.Lib.Pipeline.Regions
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! # One array behind two windows

Windows 1 and 2 of the pipeline read the same array, so the buffers behind the four windows' arrays are three. The
core holds each of those three whole at the full share; the pipeline's datum holds the shared array's full share as
its two halves, the left half at window 1 and the right half at window 2, both at the same contents. Splitting the
full share into its halves, and joining the halves back, carries the core's unscoped buffers to the windows' arrays
beside the unscoped rest, and back. -/

/-- The buffers behind the four windows' arrays are three: windows 1 and 2 read one array. -/
theorem arrRef_image0 :
    (Finset.univ.image (Pipeline.arrRef spec0) : Finset (Ref sig .tc)) = [main_arg0, main_v17, main_v18].toFinset := by
  decide

/-- The three buffers behind the windows' arrays, each whole at the full share, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v17) ↦{fullShare} V main_v17)
          ∗ (((c : Thread nD τ).loc main_v18) ↦{fullShare} V main_v18)) := by
  unfold Pipeline.arrBufs
  exact bigSep_eq_bigSepL_of_eq [main_arg0, main_v17, main_v18] arrRef_image0 (by decide) _

/-- The four windows' arrays one by one, each a whole buffer at its window's share: the full share at windows 0 and 3
    (window 3 is the output), the left half of the shared array's at window 1 and the right half at window 2. -/
theorem arrays0_eq (c : Dev nD) (dat : Dat τ (Elt F) Unit ℕ (UR sig nD τ) ℕ cfg0 c)
    (hq0 : dat.q 0 = fullShare) (hq1 : dat.q 1 = fullShare.left) (hq2 : dat.q 2 = fullShare.right)
    (A : (w : Fin cfg0.W) → Buf (Elt F) ((cfg0.win w).arr.view.loc (c : Thread nD τ))) :
    (dat.arrays A : sProp 𝕄)
      = iprop((((c : Thread nD τ).loc main_arg0) ↦{fullShare} A 0) ∗ (((c : Thread nD τ).loc main_v17) ↦{fullShare.left} A 1)
          ∗ (((c : Thread nD τ).loc main_v17) ↦{fullShare.right} A 2) ∗ (((c : Thread nD τ).loc main_v18) ↦{fullShare} A 3)) := by
  unfold Dat.arrays
  -- windows 1 and 2 have the same array, so one rewrite turns both element sets into the whole buffer
  rw [bigSep_W0, (arr_whole0 0).set_eq_univ, (arr_whole0 1).set_eq_univ, (arr_whole0 3).set_eq_univ]
  have h0 : dat.share 0 = fullShare := by unfold Dat.share; rw [show (cfg0.win 0).isOut = false from rfl]; exact hq0
  have h1 : dat.share 1 = fullShare.left := by unfold Dat.share; rw [show (cfg0.win 1).isOut = false from rfl]; exact hq1
  have h2 : dat.share 2 = fullShare.right := by unfold Dat.share; rw [show (cfg0.win 2).isOut = false from rfl]; exact hq2
  have h3 : dat.share 3 = fullShare := by unfold Dat.share; rw [show (cfg0.win 3).isOut = true from rfl]; rfl
  rw [h0, h1, h2, h3]

/-- ENTRY, the arrays' part: a core's unscoped buffers at contents `V` are the pipeline's arrays at contents read off
    `V` (`hA`) — the shared array's full share split into its left half for window 1 and its right half for window 2 —
    and the unscoped rest. -/
theorem arrays_of_unscopedBufs_shared (c : Dev nD) (dat : Dat τ (Elt F) Unit ℕ (UR sig nD τ) ℕ cfg0 c)
    (hq0 : dat.q 0 = fullShare) (hq1 : dat.q 1 = fullShare.left) (hq2 : dat.q 2 = fullShare.right)
    (V : (b : Ref sig .tc) → Buf (Elt F) ((c : Thread nD τ).loc b))
    (A : (w : Fin cfg0.W) → Buf (Elt F) ((cfg0.win w).arr.view.loc (c : Thread nD τ))) (hA : ∀ w, A w = V (Pipeline.arrRef spec0 w)) :
    (unscopedBufs c V : sProp 𝕄) ⊢ iprop(dat.arrays A ∗ Pipeline.unscopedRest (Ix := Unit) (Name := ℕ) (U := UR sig nD τ) (Lvl := ℕ) spec0 c V) := by
  rw [Pipeline.unscopedBufs_split₀ cfgs 0 winFacts₀0.arr_unscoped c V, arrBufs0_eq, arrays0_eq c dat hq0 hq1 hq2 A, hA 0, hA 1, hA 2, hA 3]
  iintro ⟨⟨H0, H17, H18⟩, Hrest⟩
  ihave H := (pointsTo_share (PosShare.mem_left_op_right fullShare)).1 $$ H17
  icases H with ⟨Hl, Hr⟩
  isplitr [Hrest]
  · isplitl [H0]; · iexact H0
    isplitl [Hl]; · iexact Hl
    isplitl [Hr]; · iexact Hr
    iexact H18
  iexact Hrest

/-- EXIT, the arrays' part: the pipeline's arrays at contents `A` and the unscoped rest at `V` are the core's unscoped
    buffers at any valuation `V'` that has the arrays at `A` (`hA`: windows 1 and 2 then hold the same contents, so the
    two halves of the shared array join to its full share) and agrees with `V` off them (`hrest`). -/
theorem unscopedBufs_of_arrays_shared (c : Dev nD) (dat : Dat τ (Elt F) Unit ℕ (UR sig nD τ) ℕ cfg0 c)
    (hq0 : dat.q 0 = fullShare) (hq1 : dat.q 1 = fullShare.left) (hq2 : dat.q 2 = fullShare.right)
    (V V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w))
    (hrest : ∀ b, b ∉ Finset.univ.image (Pipeline.arrRef spec0) → V' b = V b) :
    iprop(dat.arrays A ∗ Pipeline.unscopedRest (Ix := Unit) (Name := ℕ) (U := UR sig nD τ) (Lvl := ℕ) spec0 c V) ⊢ (unscopedBufs c V' : sProp 𝕄) := by
  have hR : (Pipeline.unscopedRest (Ix := Unit) (Name := ℕ) (U := UR sig nD τ) (Lvl := ℕ) spec0 c V : sProp 𝕄)
      = Pipeline.unscopedRest (Ix := Unit) (Name := ℕ) (U := UR sig nD τ) (Lvl := ℕ) spec0 c V' := by
    unfold Pipeline.unscopedRest
    exact bigSep_congr fun b hb => by rw [hrest b (Finset.mem_sdiff.mp hb).2]
  rw [Pipeline.unscopedBufs_split₀ cfgs 0 winFacts₀0.arr_unscoped c V', arrBufs0_eq, arrays0_eq c dat hq0 hq1 hq2 A, hA 0, hA 1, hA 2, hA 3, hR]
  iintro ⟨⟨H0, Hl, Hr, H18⟩, Hrest⟩
  isplitr [Hrest]
  · isplitl [H0]; · iexact H0
    isplitr [H18]
    · iapply (pointsTo_share (PosShare.mem_left_op_right fullShare)).2
      isplitl [Hl]; · iexact Hl
      iexact Hr
    iexact H18
  iexact Hrest

/-! ## The same two over the pinned configuration

Pipeline 0 pinned at any admissible tables is the configuration above by definition; these restate the two lemmas
with the datum's type spelled over the pinned family, as the regions' theorems spell it. -/

/-- `arrays_of_unscopedBufs_shared` for a datum over the pinned family. -/
theorem arrays_of_unscopedBufs_shared_pin (a : (p : Fin 1) → (pcfgs (F := F) p).Adm) (c : Dev nD)
    (dat : Dat τ (Elt F) Unit ℕ (UR sig nD τ) ℕ (Pipeline.pin (pcfgs (F := F)) a 0) c)
    (hq0 : dat.q 0 = fullShare) (hq1 : dat.q 1 = fullShare.left) (hq2 : dat.q 2 = fullShare.right)
    (V : (b : Ref sig .tc) → Buf (Elt F) ((c : Thread nD τ).loc b))
    (A : (w : Fin (Pipeline.pin (pcfgs (F := F)) a 0).W) → Buf (Elt F) (((Pipeline.pin (pcfgs (F := F)) a 0).win w).arr.view.loc (c : Thread nD τ)))
    (hA : ∀ w, A w = V (Pipeline.arrRef (Pipeline.pin (pcfgs (F := F)) a 0).spec w)) :
    (unscopedBufs c V : sProp 𝕄)
      ⊢ iprop(dat.arrays A ∗ Pipeline.unscopedRest (Ix := Unit) (Name := ℕ) (U := UR sig nD τ) (Lvl := ℕ) (Pipeline.pin (pcfgs (F := F)) a 0).spec c V) :=
  arrays_of_unscopedBufs_shared c dat hq0 hq1 hq2 V A hA

/-- `unscopedBufs_of_arrays_shared` for a datum over the pinned family. -/
theorem unscopedBufs_of_arrays_shared_pin (a : (p : Fin 1) → (pcfgs (F := F) p).Adm) (c : Dev nD)
    (dat : Dat τ (Elt F) Unit ℕ (UR sig nD τ) ℕ (Pipeline.pin (pcfgs (F := F)) a 0) c)
    (hq0 : dat.q 0 = fullShare) (hq1 : dat.q 1 = fullShare.left) (hq2 : dat.q 2 = fullShare.right)
    (V V' : (b : Ref sig .tc) → Buf (Elt F) ((c : Thread nD τ).loc b))
    (A : (w : Fin (Pipeline.pin (pcfgs (F := F)) a 0).W) → Buf (Elt F) (((Pipeline.pin (pcfgs (F := F)) a 0).win w).arr.view.loc (c : Thread nD τ)))
    (hA : ∀ w, A w = V' (Pipeline.arrRef (Pipeline.pin (pcfgs (F := F)) a 0).spec w))
    (hrest : ∀ b, b ∉ Finset.univ.image (Pipeline.arrRef (Pipeline.pin (pcfgs (F := F)) a 0).spec) → V' b = V b) :
    iprop(dat.arrays A ∗ Pipeline.unscopedRest (Ix := Unit) (Name := ℕ) (U := UR sig nD τ) (Lvl := ℕ) (Pipeline.pin (pcfgs (F := F)) a 0).spec c V)
      ⊢ (unscopedBufs c V' : sProp 𝕄) :=
  unscopedBufs_of_arrays_shared c dat hq0 hq1 hq2 V V' A hA hrest

end Cert.Kernel.Hand

end
-- ==== Proof.K.Run.lean ====
/-
  The launch: @main as three segments.

  @main is nineteen host operations that build the membership table from the cluster sizes, then the kernel region over
  the 256 grid points, then four host operations that sum the region's [16, 8, 128] result and divide by the number of
  scores. Between two segments a core holds every unscoped buffer whole at a known valuation: the launch contents, then
  those after the first host stretch (`W1`), then the same with the region's output array at what the pipeline leaves
  (`W2`: the input arrays are unchanged), then those after the second host stretch (`W3`).

  The region reads the membership table through two windows. At its entry the table's full share is split in two halves,
  one per window; at its exit the halves, which hold the same contents, are joined again, so that the host operations
  after the region find every buffer whole.
-/
import proofs.«123174_j446676599061_1_alg».proof.Proof.K.Frame
import proofs.«123174_j446676599061_1_alg».proof.Proof.K.Shares
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 (c : Dev nD) : Valuation τ sig (Elt F) := fun b => m (c, b)
/-- After the first host stretch: the region's entry. -/
abbrev W1 (c : Dev nD) : Valuation τ sig (Elt F) := StableHlo.after hostOps0 (W0 m c)
/-- The same read at the TensorCore's references: what the region's proof data take. -/
abbrev V1 : (c : Dev nD) → (b : Ref sig .tc) → Buf (Elt F) ((c : Thread nD τ).loc b) := fun c b => W1 m c b
/-- What the pipeline leaves in the region's output array. -/
abbrev outArr (c : Dev nD) : Buf (Elt F) ((c : Thread nD τ).loc main_v18) := (dat0 (V1 m) c).arrAt 3 cfg0.N
/-- At the region's exit: the output array at what the pipeline leaves, every other buffer as entered. -/
abbrev W2 (c : Dev nD) : Valuation τ sig (Elt F) := Function.update (W1 m c) main_v18 (outArr m c)
abbrev V2 : (c : Dev nD) → (b : Ref sig .tc) → Buf (Elt F) ((c : Thread nD τ).loc b) := fun c b => W2 m c b
/-- After the second host stretch: the end. -/
abbrev W3 (c : Dev nD) : Valuation τ sig (Elt F) := StableHlo.after hostOps1 (W2 m c)

theorem W2_out (c : Dev nD) : W2 m c main_v18 = outArr m c := by
  simp only [W2, Function.update_self]
theorem W2_of_ne (c : Dev nD) (r : Ref sig .tc) (h : r ≠ main_v18) : W2 m c r = W1 m c r := by
  simp only [W2, Function.update_of_ne (StableHlo.devRef_ne_of_ne h : (Proc.devRef .tc r : DevRef τ sig) ≠ Proc.devRef .tc main_v18)]

/-- At the exit each of the region's arrays holds what the pipeline leaves: the three input windows' arrays what they
    held at entry, the output's the write-backs folded. -/
theorem hF (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq (V1 m) c 0)).trans (W2_of_ne m c main_arg0 (by decide)).symm
  | ⟨1, _⟩ => exact (((dat0 (V1 m) c).arrAt_in 1 rfl _).trans (A_eq (V1 m) c 1)).trans (W2_of_ne m c main_v17 (by decide)).symm
  | ⟨2, _⟩ => exact (((dat0 (V1 m) c).arrAt_in 2 rfl _).trans (A_eq (V1 m) c 2)).trans (W2_of_ne m c main_v17 (by decide)).symm
  | ⟨3, _⟩ => exact (W2_out m c).symm
/-- and every other buffer what it held at entry. -/
theorem hrest (c : Dev nD) : ∀ b, b ∉ Finset.univ.image (Pipeline.arrRef spec0) → V2 m c b = V1 m c b := fun b hb =>
  W2_of_ne m c b fun e => hb (Finset.mem_image.mpr ⟨3, Finset.mem_univ _, e.symm⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-! ## The proof data family and the thread state -/

/-- No prefetched table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The region as a segment -/

set_option backward.isDefEq.respectTransparency.types false in
/-- THE REGION over the thread state: entered from every unscoped buffer at `W1`, left at `W2`. Its arrays are carved out
    of the unscoped buffers, the membership table's share split between its two windows, and put back at the exit
    contents, the two halves joined; the generator register goes into the invariant and comes out; nothing is owed; the
    kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays_of_unscopedBufs_shared c (dat0 (V1 m) c) (q0 (V1 m) c) (q1 (V1 m) c) (q2 (V1 m) c) (V1 m c)
      ((dat0 (V1 m) c).arrAt · 0) (fun w => A_eq (V1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays_shared c (dat0 (V1 m) c) (q0 (V1 m) c) (q1 (V1 m) c) (q2 (V1 m) c) (V1 m c) (V2 m c)
      ((dat0 (V1 m) c).arrAt · cfg0.N) (hF m c) (hrest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state has the result buffer at the last boundary's contents and both argument
    arrays as launched. -/
theorem run_main : θ_run defs (onTc (τ := τ) (main (F := F))) ⟨m, fun _ => 0, ρ⟩ (fun r => ∀ c : Dev nD,
      r.2.mem ((c.tc : Thread nD τ).loc main_v20) = W3 m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      (show iprop(StableHlo.held (c : Thread nD τ) (Pipeline.ucRefs τ sig) (W3 m c) ∗ R c)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v20 (by decide)),
       (h c _ (mem_uc main_arg0 (by decide))).trans (W3_main_arg0 m c),
       (h c _ (mem_uc main_arg1 (by decide))).trans (W3_main_arg1 m c)⟩)

end Cert.Kernel.Hand

end
-- ==== Proof.KI.Body.lean ====
/-
  The kernel body on any whole staging buffers, in its two control cases.

  At a grid point (b, i, j) the body first asks whether i = 0 and j = 0. If so it stores a zero block into the output's
  staging buffer. In both cases it then loads the two membership blocks and the score block, computes the tile's
  contribution (a pure function of the three blocks), loads the output's staging buffer and stores back that buffer plus
  the contribution. So at a first point the buffer ends as a function of the three input blocks alone, and at every other
  point as a function of the three blocks and of what the buffer held before.

  Each run is stated as a pair: the list of pieces the stores leave in the output's buffer, and the proof that, from the
  three input buffers at given contents and the output buffer at given (or any) contents, the body runs to a state that
  holds the inputs unchanged and the output buffer overwritten by those pieces.
-/
import proofs.«123174_j446676599061_1_alg».proof.Proof.Gen.KernelIdeal.Launch
import proofs.«123174_j446676599061_1_alg».proof.Proof.Gen.KernelIdeal.Skeleton
import proofs.«123174_j446676599061_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition from the grid coordinates: the second and the third coordinate are both zero. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the grid of 16 × 4 × 4 points in row-major order it holds exactly at the points divisible by 16: the first
    point of each batch entry. -/
theorem isFirst_iff : ∀ t : Fin cfg0.N, isFirst (grid0.coords t) ↔ t.val % 16 = 0 :=
  (by decide +kernel : ∀ t : Fin grid0.N, isFirst (grid0.coords t) ↔ t.val % 16 = 0)

set_option maxHeartbeats 1000000 in
/-- THE FIRST POINT OF A BATCH ENTRY: the output's buffer, whatever it held, ends overwritten by the pieces `L`. -/
noncomputable def runFirst (c : Dev nD) (i : grid0.Coords)
    (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : isFirst i) (x3 : Vec F S1x512x512 .f32) (x4 x5 : Vec F S1x16x512 .f32) :
    { L : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ (∃ d, owns (c : Thread nD τ) arg6 fullShare d)
            ∗ (iprop(owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    simp only [k0_part1_eq_skeleton]
    unfold owns
    iintro ⟨⟨%f3, %hf3, H3⟩, ⟨%f4, %hf4, H4⟩, ⟨%f5, %hf5, H5⟩, ⟨%d6, %f6, -, H6⟩, Hk⟩
    obtain rfl := harg3.eq_unread hf3; obtain rfl := harg4.eq_unread hf4; obtain rfl := harg5.eq_unread hf5
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

set_option maxHeartbeats 1000000 in
/-- EVERY OTHER POINT: the output's buffer, holding `x6`, ends overwritten by the pieces `L` (which read `x6`). -/
noncomputable def runNext (c : Dev nD) (i : grid0.Coords)
    (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : ¬isFirst i) (x3 : Vec F S1x512x512 .f32) (x4 x5 : Vec F S1x16x512 .f32) (x6 : Vec F S1x8x128 .f32) :
    { L : List (View.Piece (Elt F) S1x8x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6
            ∗ (iprop(owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L)) -∗ K ⟨⟩))
          ⊢ wp frame (wpE (defs₀ (F := F)) Variants.none c none) E (cc0__mse_kernel i arg3 harg3 arg4 harg4 arg5 harg5 arg6 harg6) K } := by
  refine ⟨?_, fun E K => ?run⟩
  case run =>
    simp only [cc0__mse_kernel_eq_skeleton]; unfold cc0__mse_kernel_skel
    simp only [k0_part1_eq_skeleton]
    unfold owns
    iintro ⟨⟨%f3, %hf3, H3⟩, ⟨%f4, %hf4, H4⟩, ⟨%f5, %hf5, H5⟩, ⟨%f6, %hf6, H6⟩, Hk⟩
    obtain rfl := harg3.eq_unread hf3; obtain rfl := harg4.eq_unread hf4; obtain rfl := harg5.eq_unread hf5; obtain rfl := harg6.eq_unread hf6
    sl_exec (disch := first | exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; iexact H6

end Cert.KernelIdeal.Hand

end
-- ==== Proof.KI.Frame.lean ====
/-
  The pipeline's proof data and the body obligation.

  The grid has 16 × 4 × 4 = 256 points in row-major order; point t belongs to batch entry t / 16. The three input windows
  are never written by the body, so each input's staging buffer holds its array's block at every point. The output
  window's block is the same for the sixteen points of a batch entry and is written back after the last of them, so its
  staging buffer carries an accumulator: `outsAt n` is what that buffer holds after the body at point n — the reset case's
  result when n is divisible by 16, else the accumulate case's result over `outsAt (n - 1)`.
-/
import proofs.«123174_j446676599061_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered, per core
variable (V : (c : Dev nD) → (b : Ref sig .tc) → Buf (Elt F) ((c : Thread nD τ).loc b))

/-! ## The windows' blocks and staging buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the region-entry one and whose body leaves the block in place. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated (the choice does not matter). -/
abbrev VO : View sig .tc .vmem S1x8x128 .f32 := (Memref.whole cc0_stg3_0 : Memref sig .tc .vmem S1x8x128 .f32).view
/-- Each window's current staging buffer at point `t`, as the pipeline passes it to the body, and its wholeness. -/
abbrev ms0 (t : Fin cfg0.N) : Memref sig .tc .vmem S1x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x16x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x128 .f32 := win0_3.stage (cfg0.slots t 3)
abbrev hs3 (t : Fin cfg0.N) : (ms3 t).IsWhole := hstage0_3 ((cfg0.slots t 3).cast nbuf0_3)

/-! ## What each case leaves in the output's buffer -/

omit V in
/-- The reset case's pieces tile the output's block, so they cover it. -/
theorem coverFirst (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : isFirst i) (x3 : Vec F S1x512x512 .f32) (x4 x5 : Vec F S1x16x512 .f32) (y : S1x8x128.Idx) :
    ∃ pc ∈ (runFirst c i arg3 harg3 arg4 harg4 arg5 harg5 arg6 harg6 hc x3 x4 x5).1, y ∈ pc.1.set :=
  View.cover_of_tiledL (runFirst c i arg3 harg3 arg4 harg4 arg5 harg5 arg6 harg6 hc x3 x4 x5).1 S1x8x128.size (by sl_kernel_rfl) y

omit V in
/-- What the reset case leaves in the output's buffer: its pieces read back. -/
def outFirst (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : isFirst i) (x3 : Vec F S1x512x512 .f32) (x4 x5 : Vec F S1x16x512 .f32) : Vec F S1x8x128 .f32 :=
  VO.read (Elt F) (VO.writes (Elt F) VO.junk (runFirst c i arg3 harg3 arg4 harg4 arg5 harg5 arg6 harg6 hc x3 x4 x5).1)

omit V in
/-- The accumulate case's pieces tile the output's block, so they cover it. -/
theorem coverNext (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : ¬isFirst i) (x3 : Vec F S1x512x512 .f32) (x4 x5 : Vec F S1x16x512 .f32) (x6 : Vec F S1x8x128 .f32) (y : S1x8x128.Idx) :
    ∃ pc ∈ (runNext c i arg3 harg3 arg4 harg4 arg5 harg5 arg6 harg6 hc x3 x4 x5 x6).1, y ∈ pc.1.set :=
  View.cover_of_tiledL (runNext c i arg3 harg3 arg4 harg4 arg5 harg5 arg6 harg6 hc x3 x4 x5 x6).1 S1x8x128.size (by sl_kernel_rfl) y

omit V in
/-- What the accumulate case leaves in the output's buffer: its pieces read back. -/
def outNext (c : Dev nD) (i : grid0.Coords) (arg3 : Memref sig .tc .vmem S1x512x512 .f32) (harg3 : arg3.IsWhole) (arg4 : Memref sig .tc .vmem S1x16x512 .f32) (harg4 : arg4.IsWhole)
    (arg5 : Memref sig .tc .vmem S1x16x512 .f32) (harg5 : arg5.IsWhole) (arg6 : Memref sig .tc .vmem S1x8x128 .f32) (harg6 : arg6.IsWhole)
    (hc : ¬isFirst i) (x3 : Vec F S1x512x512 .f32) (x4 x5 : Vec F S1x16x512 .f32) (x6 : Vec F S1x8x128 .f32) : Vec F S1x8x128 .f32 :=
  VO.read (Elt F) (VO.writes (Elt F) VO.junk (runNext c i arg3 harg3 arg4 harg4 arg5 harg5 arg6 harg6 hc x3 x4 x5 x6).1)

/-! ## The accumulation, point by point -/

/-- What the output's staging buffer holds after the body at position `n`: the reset case at a position divisible by 16,
    else the accumulate case over what this leaves at `n - 1` (the buffer is not written back in between). -/
def outsAt (c : Dev nD) : (n : ℕ) → n < cfg0.N → Vec F S1x8x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((isFirst_iff ⟨0, hn⟩).mpr (Nat.zero_mod _)) (iblk V c 0 ⟨0, hn⟩) (iblk V c 1 ⟨0, hn⟩) (iblk V c 2 ⟨0, hn⟩)
  | n + 1, hn =>
    if h0 : (n + 1) % 16 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((isFirst_iff ⟨n + 1, hn⟩).mpr h0) (iblk V c 0 ⟨n + 1, hn⟩) (iblk V c 1 ⟨n + 1, hn⟩) (iblk V c 2 ⟨n + 1, hn⟩)
    else
      outNext c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((isFirst_iff ⟨n + 1, hn⟩).mp h)) (iblk V c 0 ⟨n + 1, hn⟩) (iblk V c 1 ⟨n + 1, hn⟩) (iblk V c 2 ⟨n + 1, hn⟩) (outsAt c n (Nat.lt_of_succ_lt hn))

/-- `outsAt` at a point divisible by 16. -/
theorem outsAt_first (c : Dev nD) (t : Fin cfg0.N) (h0 : t.val % 16 = 0) :
    outsAt V c t.val t.isLt = outFirst c (grid0.coords t) (ms0 t) (hs0 t) (ms1 t) (hs1 t) (ms2 t) (hs2 t) (ms3 t) (hs3 t) ((isFirst_iff t).mpr h0) (iblk V c 0 t) (iblk V c 1 t) (iblk V c 2 t) := by
  obtain ⟨n, hn⟩ := t
  cases n with
  | zero => exact rfl
  | succ n => exact (dif_pos h0).trans rfl

/-- `outsAt` at any other point: the accumulate case over what the point before left. -/
theorem outsAt_next (c : Dev nD) (t : Fin cfg0.N) (h0 : ¬t.val % 16 = 0) :
    outsAt V c t.val t.isLt = outNext c (grid0.coords t) (ms0 t) (hs0 t) (ms1 t) (hs1 t) (ms2 t) (hs2 t) (ms3 t) (hs3 t) (fun h => h0 ((isFirst_iff t).mp h)) (iblk V c 0 t) (iblk V c 1 t) (iblk V c 2 t)
      (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The proof data on core `c`: the arrays as the region finds them; after the body each input's buffer at its block and
    the output's at `outsAt`; the invariant the scoped rest and the generator register, which the body does not use;
    nothing owed. The score array is held whole; the membership array, read by windows 1 and 2, is held half and half. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outsAt V c t.val t.isLt
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = outsAt V c t.val t.isLt := by dsimp only [dat0]

theorem q0 (c : Dev nD) : (dat0 V c).q 0 = fullShare := by dsimp only [dat0]
theorem q1 (c : Dev nD) : (dat0 V c).q 1 = fullShare.left := by dsimp only [dat0]
theorem q2 (c : Dev nD) : (dat0 V c).q 2 = fullShare.right := by dsimp only [dat0]

theorem before0 (c : Dev nD) (t : Fin cfg0.N) (d) : (dat0 V c).before 0 t d = iblk V c 0 t :=
  before_in0 V (dat0 V c) (A_eq V c 0) (after0 V c) t d
theorem before1 (c : Dev nD) (t : Fin cfg0.N) (d) : (dat0 V c).before 1 t d = iblk V c 1 t :=
  before_in1 V (dat0 V c) (A_eq V c 1) (after1 V c) t d
theorem before2 (c : Dev nD) (t : Fin cfg0.N) (d) : (dat0 V c).before 2 t d = iblk V c 2 t :=
  before_in2 V (dat0 V c) (A_eq V c 2) (after2 V c) t d

/-- At a point not divisible by 16 the output's buffer holds what the body left at the point before: the point is not
    the first, and the buffer is written back only after points ≡ 15 (mod 16). -/
theorem before3_next (c : Dev nD) (t : Fin cfg0.N) (h0 : ¬t.val % 16 = 0) (d) :
    (dat0 V c).before 3 t d = outsAt V c (t.val - 1) (Nat.lt_of_le_of_lt (Nat.sub_le _ _) t.isLt) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ owns (c : Thread nD τ) (ms0 t) fullShare ((dat0 V c).after 0 t)
    ∗ owns (c : Thread nD τ) (ms1 t) fullShare ((dat0 V c).after 1 t)
    ∗ owns (c : Thread nD τ) (ms2 t) fullShare ((dat0 V c).after 2 t)
    ∗ owns (c : Thread nD τ) (ms3 t) fullShare ((dat0 V c).after 3 t))

set_option maxHeartbeats 1600000 in
/-- The body at any point: the inputs' buffers hold their blocks; the point's position modulo 16 says which case it is
    in; in the accumulate case the output's buffer holds what the point before left; so that case's run applies. The
    invariant passes through unread and the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat0 V c).Φ t.succ = (dat0 V c).Φ t.castSucc from rfl,
    show (dat0 V c).owesAt () t.succ = (dat0 V c).owesAt () t.castSucc from rfl,
    after0, after1, after2, after3]
  by_cases h0 : t.val % 16 = 0
  · rw [outsAt_first V c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((isFirst_iff t).mpr h0) (iblk V c 0 t) (iblk V c 1 t) (iblk V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _)
  · rw [outsAt_next V c t h0]
    simp only [before3_next V c t h0]
    unfold outNext
    iintro ⟨HΦ, Ho, ⟨%d0, H0⟩, ⟨%d1, H1⟩, ⟨%d2, H2⟩, ⟨%d3, H3⟩⟩
    iapply ((runNext c (grid0.coords t) _ _ _ _ _ _ _ _ (fun h => h0 ((isFirst_iff t).mp h)) (iblk V c 0 t) (iblk V c 1 t) (iblk V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverNext c _ _ _ _ _ _ _ _ _ _ _ _ _ _)

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Shares.lean ====
/- One array behind two windows: the windows' arrays carved out of a core's unscoped buffers, and put back, when
   windows 1 and 2 of the pipeline read the same array and hold its full share as its two halves. -/
import proofs.«123174_j446676599061_1_alg».proof.Proof.Gen.KernelIdeal.Launch
import Idealize.ShloMosaic.Lib.Pipeline.Frame
import Idealize.ShloMosaic.Lib.Pipeline.Regions
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-! # One array behind two windows

Windows 1 and 2 of the pipeline read the same array, so the buffers behind the four windows' arrays are three. The
core holds each of those three whole at the full share; the pipeline's datum holds the shared array's full share as
its two halves, the left half at window 1 and the right half at window 2, both at the same contents. Splitting the
full share into its halves, and joining the halves back, carries the core's unscoped buffers to the windows' arrays
beside the unscoped rest, and back. -/

/-- The buffers behind the four windows' arrays are three: windows 1 and 2 read one array. -/
theorem arrRef_image0 :
    (Finset.univ.image (Pipeline.arrRef spec0) : Finset (Ref sig .tc)) = [main_arg0, main_v17, main_v18].toFinset := by
  decide

/-- The three buffers behind the windows' arrays, each whole at the full share, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v17) ↦{fullShare} V main_v17)
          ∗ (((c : Thread nD τ).loc main_v18) ↦{fullShare} V main_v18)) := by
  unfold Pipeline.arrBufs
  exact bigSep_eq_bigSepL_of_eq [main_arg0, main_v17, main_v18] arrRef_image0 (by decide) _

/-- The four windows' arrays one by one, each a whole buffer at its window's share: the full share at windows 0 and 3
    (window 3 is the output), the left half of the shared array's at window 1 and the right half at window 2. -/
theorem arrays0_eq (c : Dev nD) (dat : Dat τ (Elt F) Unit ℕ (UR sig nD τ) ℕ cfg0 c)
    (hq0 : dat.q 0 = fullShare) (hq1 : dat.q 1 = fullShare.left) (hq2 : dat.q 2 = fullShare.right)
    (A : (w : Fin cfg0.W) → Buf (Elt F) ((cfg0.win w).arr.view.loc (c : Thread nD τ))) :
    (dat.arrays A : sProp 𝕄)
      = iprop((((c : Thread nD τ).loc main_arg0) ↦{fullShare} A 0) ∗ (((c : Thread nD τ).loc main_v17) ↦{fullShare.left} A 1)
          ∗ (((c : Thread nD τ).loc main_v17) ↦{fullShare.right} A 2) ∗ (((c : Thread nD τ).loc main_v18) ↦{fullShare} A 3)) := by
  unfold Dat.arrays
  -- windows 1 and 2 have the same array, so one rewrite turns both element sets into the whole buffer
  rw [bigSep_W0, (arr_whole0 0).set_eq_univ, (arr_whole0 1).set_eq_univ, (arr_whole0 3).set_eq_univ]
  have h0 : dat.share 0 = fullShare := by unfold Dat.share; rw [show (cfg0.win 0).isOut = false from rfl]; exact hq0
  have h1 : dat.share 1 = fullShare.left := by unfold Dat.share; rw [show (cfg0.win 1).isOut = false from rfl]; exact hq1
  have h2 : dat.share 2 = fullShare.right := by unfold Dat.share; rw [show (cfg0.win 2).isOut = false from rfl]; exact hq2
  have h3 : dat.share 3 = fullShare := by unfold Dat.share; rw [show (cfg0.win 3).isOut = true from rfl]; rfl
  rw [h0, h1, h2, h3]

/-- ENTRY, the arrays' part: a core's unscoped buffers at contents `V` are the pipeline's arrays at contents read off
    `V` (`hA`) — the shared array's full share split into its left half for window 1 and its right half for window 2 —
    and the unscoped rest. -/
theorem arrays_of_unscopedBufs_shared (c : Dev nD) (dat : Dat τ (Elt F) Unit ℕ (UR sig nD τ) ℕ cfg0 c)
    (hq0 : dat.q 0 = fullShare) (hq1 : dat.q 1 = fullShare.left) (hq2 : dat.q 2 = fullShare.right)
    (V : (b : Ref sig .tc) → Buf (Elt F) ((c : Thread nD τ).loc b))
    (A : (w : Fin cfg0.W) → Buf (Elt F) ((cfg0.win w).arr.view.loc (c : Thread nD τ))) (hA : ∀ w, A w = V (Pipeline.arrRef spec0 w)) :
    (unscopedBufs c V : sProp 𝕄) ⊢ iprop(dat.arrays A ∗ Pipeline.unscopedRest (Ix := Unit) (Name := ℕ) (U := UR sig nD τ) (Lvl := ℕ) spec0 c V) := by
  rw [Pipeline.unscopedBufs_split₀ cfgs 0 winFacts₀0.arr_unscoped c V, arrBufs0_eq, arrays0_eq c dat hq0 hq1 hq2 A, hA 0, hA 1, hA 2, hA 3]
  iintro ⟨⟨H0, H17, H18⟩, Hrest⟩
  ihave H := (pointsTo_share (PosShare.mem_left_op_right fullShare)).1 $$ H17
  icases H with ⟨Hl, Hr⟩
  isplitr [Hrest]
  · isplitl [H0]; · iexact H0
    isplitl [Hl]; · iexact Hl
    isplitl [Hr]; · iexact Hr
    iexact H18
  iexact Hrest

/-- EXIT, the arrays' part: the pipeline's arrays at contents `A` and the unscoped rest at `V` are the core's unscoped
    buffers at any valuation `V'` that has the arrays at `A` (`hA`: windows 1 and 2 then hold the same contents, so the
    two halves of the shared array join to its full share) and agrees with `V` off them (`hrest`). -/
theorem unscopedBufs_of_arrays_shared (c : Dev nD) (dat : Dat τ (Elt F) Unit ℕ (UR sig nD τ) ℕ cfg0 c)
    (hq0 : dat.q 0 = fullShare) (hq1 : dat.q 1 = fullShare.left) (hq2 : dat.q 2 = fullShare.right)
    (V V' : (b : Ref sig .tc) → Buf (Elt F) ((c : Thread nD τ).loc b))
    (A : (w : Fin cfg0.W) → Buf (Elt F) ((cfg0.win w).arr.view.loc (c : Thread nD τ))) (hA : ∀ w, A w = V' (Pipeline.arrRef spec0 w))
    (hrest : ∀ b, b ∉ Finset.univ.image (Pipeline.arrRef spec0) → V' b = V b) :
    iprop(dat.arrays A ∗ Pipeline.unscopedRest (Ix := Unit) (Name := ℕ) (U := UR sig nD τ) (Lvl := ℕ) spec0 c V) ⊢ (unscopedBufs c V' : sProp 𝕄) := by
  have hR : (Pipeline.unscopedRest (Ix := Unit) (Name := ℕ) (U := UR sig nD τ) (Lvl := ℕ) spec0 c V : sProp 𝕄)
      = Pipeline.unscopedRest (Ix := Unit) (Name := ℕ) (U := UR sig nD τ) (Lvl := ℕ) spec0 c V' := by
    unfold Pipeline.unscopedRest
    exact bigSep_congr fun b hb => by rw [hrest b (Finset.mem_sdiff.mp hb).2]
  rw [Pipeline.unscopedBufs_split₀ cfgs 0 winFacts₀0.arr_unscoped c V', arrBufs0_eq, arrays0_eq c dat hq0 hq1 hq2 A, hA 0, hA 1, hA 2, hA 3, hR]
  iintro ⟨⟨H0, Hl, Hr, H18⟩, Hrest⟩
  isplitr [Hrest]
  · isplitl [H0]; · iexact H0
    isplitr [H18]
    · iapply (pointsTo_share (PosShare.mem_left_op_right fullShare)).2
      isplitl [Hl]; · iexact Hl
      iexact Hr
    iexact H18
  iexact Hrest

/-! ## The same two over the pinned configuration

Pipeline 0 pinned at any admissible tables is the configuration above by definition; these restate the two lemmas
with the datum's type spelled over the pinned family, as the regions' theorems spell it. -/

/-- `arrays_of_unscopedBufs_shared` for a datum over the pinned family. -/
theorem arrays_of_unscopedBufs_shared_pin (a : (p : Fin 1) → (pcfgs (F := F) p).Adm) (c : Dev nD)
    (dat : Dat τ (Elt F) Unit ℕ (UR sig nD τ) ℕ (Pipeline.pin (pcfgs (F := F)) a 0) c)
    (hq0 : dat.q 0 = fullShare) (hq1 : dat.q 1 = fullShare.left) (hq2 : dat.q 2 = fullShare.right)
    (V : (b : Ref sig .tc) → Buf (Elt F) ((c : Thread nD τ).loc b))
    (A : (w : Fin (Pipeline.pin (pcfgs (F := F)) a 0).W) → Buf (Elt F) (((Pipeline.pin (pcfgs (F := F)) a 0).win w).arr.view.loc (c : Thread nD τ)))
    (hA : ∀ w, A w = V (Pipeline.arrRef (Pipeline.pin (pcfgs (F := F)) a 0).spec w)) :
    (unscopedBufs c V : sProp 𝕄)
      ⊢ iprop(dat.arrays A ∗ Pipeline.unscopedRest (Ix := Unit) (Name := ℕ) (U := UR sig nD τ) (Lvl := ℕ) (Pipeline.pin (pcfgs (F := F)) a 0).spec c V) :=
  arrays_of_unscopedBufs_shared c dat hq0 hq1 hq2 V A hA

/-- `unscopedBufs_of_arrays_shared` for a datum over the pinned family. -/
theorem unscopedBufs_of_arrays_shared_pin (a : (p : Fin 1) → (pcfgs (F := F) p).Adm) (c : Dev nD)
    (dat : Dat τ (Elt F) Unit ℕ (UR sig nD τ) ℕ (Pipeline.pin (pcfgs (F := F)) a 0) c)
    (hq0 : dat.q 0 = fullShare) (hq1 : dat.q 1 = fullShare.left) (hq2 : dat.q 2 = fullShare.right)
    (V V' : (b : Ref sig .tc) → Buf (Elt F) ((c : Thread nD τ).loc b))
    (A : (w : Fin (Pipeline.pin (pcfgs (F := F)) a 0).W) → Buf (Elt F) (((Pipeline.pin (pcfgs (F := F)) a 0).win w).arr.view.loc (c : Thread nD τ)))
    (hA : ∀ w, A w = V' (Pipeline.arrRef (Pipeline.pin (pcfgs (F := F)) a 0).spec w))
    (hrest : ∀ b, b ∉ Finset.univ.image (Pipeline.arrRef (Pipeline.pin (pcfgs (F := F)) a 0).spec) → V' b = V b) :
    iprop(dat.arrays A ∗ Pipeline.unscopedRest (Ix := Unit) (Name := ℕ) (U := UR sig nD τ) (Lvl := ℕ) (Pipeline.pin (pcfgs (F := F)) a 0).spec c V)
      ⊢ (unscopedBufs c V' : sProp 𝕄) :=
  unscopedBufs_of_arrays_shared c dat hq0 hq1 hq2 V V' A hA hrest

end Cert.KernelIdeal.Hand

end
-- ==== Proof.KI.Run.lean ====
/-
  The launch: @main as three segments.

  @main is nineteen host operations that build the membership table from the cluster sizes, then the kernel region over
  the 256 grid points, then four host operations that sum the region's [16, 8, 128] result and divide by the number of
  scores. Between two segments a core holds every unscoped buffer whole at a known valuation: the launch contents, then
  those after the first host stretch (`W1`), then the same with the region's output array at what the pipeline leaves
  (`W2`: the input arrays are unchanged), then those after the second host stretch (`W3`).

  The region reads the membership table through two windows. At its entry the table's full share is split in two halves,
  one per window; at its exit the halves, which hold the same contents, are joined again, so that the host operations
  after the region find every buffer whole.
-/
import proofs.«123174_j446676599061_1_alg».proof.Proof.KI.Frame
import proofs.«123174_j446676599061_1_alg».proof.Proof.KI.Shares
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 (c : Dev nD) : Valuation τ sig (Elt F) := fun b => m (c, b)
/-- After the first host stretch: the region's entry. -/
abbrev W1 (c : Dev nD) : Valuation τ sig (Elt F) := StableHlo.after hostOps0 (W0 m c)
/-- The same read at the TensorCore's references: what the region's proof data take. -/
abbrev V1 : (c : Dev nD) → (b : Ref sig .tc) → Buf (Elt F) ((c : Thread nD τ).loc b) := fun c b => W1 m c b
/-- What the pipeline leaves in the region's output array. -/
abbrev outArr (c : Dev nD) : Buf (Elt F) ((c : Thread nD τ).loc main_v18) := (dat0 (V1 m) c).arrAt 3 cfg0.N
/-- At the region's exit: the output array at what the pipeline leaves, every other buffer as entered. -/
abbrev W2 (c : Dev nD) : Valuation τ sig (Elt F) := Function.update (W1 m c) main_v18 (outArr m c)
abbrev V2 : (c : Dev nD) → (b : Ref sig .tc) → Buf (Elt F) ((c : Thread nD τ).loc b) := fun c b => W2 m c b
/-- After the second host stretch: the end. -/
abbrev W3 (c : Dev nD) : Valuation τ sig (Elt F) := StableHlo.after hostOps1 (W2 m c)

theorem W2_out (c : Dev nD) : W2 m c main_v18 = outArr m c := by
  simp only [W2, Function.update_self]
theorem W2_of_ne (c : Dev nD) (r : Ref sig .tc) (h : r ≠ main_v18) : W2 m c r = W1 m c r := by
  simp only [W2, Function.update_of_ne (StableHlo.devRef_ne_of_ne h : (Proc.devRef .tc r : DevRef τ sig) ≠ Proc.devRef .tc main_v18)]

/-- At the exit each of the region's arrays holds what the pipeline leaves: the three input windows' arrays what they
    held at entry, the output's the write-backs folded. -/
theorem hF (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq (V1 m) c 0)).trans (W2_of_ne m c main_arg0 (by decide)).symm
  | ⟨1, _⟩ => exact (((dat0 (V1 m) c).arrAt_in 1 rfl _).trans (A_eq (V1 m) c 1)).trans (W2_of_ne m c main_v17 (by decide)).symm
  | ⟨2, _⟩ => exact (((dat0 (V1 m) c).arrAt_in 2 rfl _).trans (A_eq (V1 m) c 2)).trans (W2_of_ne m c main_v17 (by decide)).symm
  | ⟨3, _⟩ => exact (W2_out m c).symm
/-- and every other buffer what it held at entry. -/
theorem hrest (c : Dev nD) : ∀ b, b ∉ Finset.univ.image (Pipeline.arrRef spec0) → V2 m c b = V1 m c b := fun b hb =>
  W2_of_ne m c b fun e => hb (Finset.mem_image.mpr ⟨3, Finset.mem_univ _, e.symm⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-! ## The proof data family and the thread state -/

/-- No prefetched table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The region as a segment -/

set_option backward.isDefEq.respectTransparency.types false in
/-- THE REGION over the thread state: entered from every unscoped buffer at `W1`, left at `W2`. Its arrays are carved out
    of the unscoped buffers, the membership table's share split between its two windows, and put back at the exit
    contents, the two halves joined; the generator register goes into the invariant and comes out; nothing is owed; the
    kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays_of_unscopedBufs_shared c (dat0 (V1 m) c) (q0 (V1 m) c) (q1 (V1 m) c) (q2 (V1 m) c) (V1 m c)
      ((dat0 (V1 m) c).arrAt · 0) (fun w => A_eq (V1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays_shared c (dat0 (V1 m) c) (q0 (V1 m) c) (q1 (V1 m) c) (q2 (V1 m) c) (V1 m c) (V2 m c)
      ((dat0 (V1 m) c).arrAt · cfg0.N) (hF m c) (hrest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

/-- @main IS the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state has the result buffer at the last boundary's contents and both argument
    arrays as launched. -/
theorem run_main : θ_run defs (onTc (τ := τ) (main (F := F))) ⟨m, fun _ => 0, ρ⟩ (fun r => ∀ c : Dev nD,
      r.2.mem ((c.tc : Thread nD τ).loc main_v20) = W3 m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      (show iprop(StableHlo.held (c : Thread nD τ) (Pipeline.ucRefs τ sig) (W3 m c) ∗ R c)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v20 (by decide)),
       (h c _ (mem_uc main_arg0 (by decide))).trans (W3_main_arg0 m c),
       (h c _ (mem_uc main_arg1 (by decide))).trans (W3_main_arg1 m c)⟩)

end Cert.KernelIdeal.Hand

end
-- ==== Proof.Spec.lean ====
/-
  What both programs compute, written once over literal shapes.

  From the sixteen cluster sizes of a batch entry the host builds a membership table `M` (entry `(b, k, i)` is 1 when
  position `i` lies in the interval of cluster `k` of batch entry `b`, else 0). Two positions `p, q` are "together"
  when some cluster holds both: the number of such clusters is `cov M b p q = ∑ k, M (b, k, p) · M (b, k, q)`, a natural
  number at most 16, and the target is the indicator that this count is positive. The loss is the mean over all
  `(b, p, q)` of the squared difference between the score and the target.

  The two programs differ in the threshold they compare the count with (one half against zero) and in the order they add
  the squares up (tile by tile, 512 × 512 at a time, against all at once). `tgt` takes the threshold as a parameter and
  `tile` is one tile's sum, so that both readings are instances of the definitions here.
-/
import Idealize.ShloMosaic.PureOps.Ideal
import Idealize.ShloMosaic.Lib.ValueIdx

noncomputable section

namespace Cert.Spec

open Idealize.ShloMosaic Idealize.ShloMosaic.ValueIdx

/-- The membership table's shape `[batch, cluster, position]` and the scores' shape `[batch, position, position]`. -/
abbrev SM : Shape := ⟨3, ![16, 16, 2048]⟩
abbrev SR : Shape := ⟨3, ![16, 2048, 2048]⟩

/-- The indicator of a decidable proposition as an extended real: 1 when it holds, 0 when it does not. -/
def ind (P : Prop) [Decidable P] : EReal := if P then 1 else 0

/-- How many clusters of batch entry `b` hold both positions `p` and `q`. -/
def cov (M : SM.Idx → EReal) (b : Fin 16) (p q : Fin 2048) : EReal :=
  ∑ k : Fin 16, M (ix3 b k p) * M (ix3 b k q)

/-- The target at `(b, p, q)`: 1 when the cover count exceeds the threshold `θ`, else 0. -/
def tgt (θ : EReal) (M : SM.Idx → EReal) (b : Fin 16) (p q : Fin 2048) : EReal :=
  ind (θ < cov M b p q)

/-- The squared error at `(b, p, q)`. -/
def sq (θ : EReal) (M : SM.Idx → EReal) (R : SR.Idx → EReal) (b : Fin 16) (p q : Fin 2048) : EReal :=
  (R (ix3 b p q) - tgt θ M b p q) * (R (ix3 b p q) - tgt θ M b p q)

/-- The sum of the squared errors over every `(b, p, q)`. -/
def total (θ : EReal) (M : SM.Idx → EReal) (R : SR.Idx → EReal) : EReal :=
  ∑ i : SR.Idx, sq θ M R (i 0) (i 1) (i 2)

/-- Position `a` of tile `i` along an axis of 2048 cut into four tiles of 512. -/
def row (i : Fin 4) (a : Fin 512) : Fin 2048 := ⟨512 * i.val + a.val, by omega⟩

/-- The sum of the squared errors over the 512 × 512 tile `(i, j)` of batch entry `b`, rows first. -/
def tile (θ : EReal) (M : SM.Idx → EReal) (R : SR.Idx → EReal) (b : Fin 16) (i j : Fin 4) : EReal :=
  ∑ a : Fin 512, ∑ a' : Fin 512, sq θ M R b (row i a) (row j a')

end Cert.Spec

end
-- ==== Proof.KI.Contrib.lean ====
/-
  One grid point's contribution to the sum, from that point's three input blocks.

  At point t the body adds to the accumulator's entry (0, 0) the sum, over the 512 × 512 positions (a, a') of the tile,
  of the squared difference between the score block at (a, a') and the indicator that the cover count of (a, a') — the sum
  over the sixteen clusters k of the first membership block at (k, a) times the second at (k, a') — exceeds one half.
-/
import proofs.«123174_j446676599061_1_alg».proof.Proof.KI.Frame
import proofs.«123174_j446676599061_1_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem

/-- One half, the threshold the kernel compares the cover count with. -/
abbrev half : EReal := (((1 : ℝ) / 2 : ℝ) : EReal)

/-- The tile's sum of squared errors as a function of the three blocks the body loads. -/
def blockSum (x3 : Vec Ideal S1x512x512 .f32) (x4 x5 : Vec Ideal S1x16x512 .f32) : EReal :=
  ∑ a : Fin 512, ∑ a' : Fin 512,
    (x3 (ix3 (0 : Fin 1) a a') - Cert.Spec.ind (half < ∑ k : Fin 16, x4 (ix3 (0 : Fin 1) k a) * x5 (ix3 (0 : Fin 1) k a')))
    * (x3 (ix3 (0 : Fin 1) a a') - Cert.Spec.ind (half < ∑ k : Fin 16, x4 (ix3 (0 : Fin 1) k a) * x5 (ix3 (0 : Fin 1) k a')))

variable (V : (c : Dev nD) → (b : Ref sig .tc) → Buf (Elt Ideal) ((c : Thread nD τ).loc b))

/-- Point `t`'s contribution: the tile's sum at the point's input blocks. -/
def contrib (c : Dev nD) (t : Fin cfg0.N) : EReal := blockSum (iblk V c 0 t) (iblk V c 1 t) (iblk V c 2 t)

/-- The same at a position given as a natural number (zero past the grid's end). -/
def contribN (c : Dev nD) (n : ℕ) : EReal := if h : n < cfg0.N then contrib V c ⟨n, h⟩ else 0

end Cert.KernelIdeal.Hand

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KI.PayValue.lean ====
/-
  The kernel body's arithmetic, at the ideal values, read at an index.

  One tile's work: from two [1,16,512] blocks of the membership table and a [1,512,512] block of scores, the cover count
  cov[a,a'] = ∑ k, M[0,k,a] · M'[0,k,a'] (a matrix product of the first block transposed with the second), the target
  1 when the count exceeds one half and 0 otherwise, the squared difference from the score, summed over both axes, and
  that scalar placed at position (0,0) of an [8,128] vector that is zero elsewhere. The accumulator's update adds that
  vector to the [1,8,128] block, and the initial block is zero.
-/
import proofs.«123174_j446676599061_1_alg».proof.Proof.Gen.KernelIdeal.Skeleton
import proofs.«123174_j446676599061_1_alg».proof.Proof.Spec
import proofs.«123174_j446676599061_1_alg».proof.Proof.LibMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx

/-- The initial accumulator block is zero everywhere. -/
theorem pay2_apply (r : Fin 8) (cc : Fin 128) : k0_pay2 (F := Ideal) (ix3 (0 : Fin 1) r cc) = 0 := by
  unfold k0_pay2
  refine (shapeCast_ab_1ab_apply _ _ (0 : Fin 1) r cc).trans ?_
  exact Ideal.ofBits_zero_f32

/-- The accumulator's update adds the tile's vector to the block, position by position. -/
theorem pay1_apply (v35 : FVec Ideal S8x128 .f32) (v36 : Vec Ideal S1x8x128 .f32) (r : Fin 8) (cc : Fin 128) :
    k0_pay1 (F := Ideal) v35 v36 (ix3 (0 : Fin 1) r cc) = v36 (ix3 (0 : Fin 1) r cc) + v35 (ix2 r cc) := by
  unfold k0_pay1
  refine (shapeCast_ab_1ab_apply _ _ (0 : Fin 1) r cc).trans ?_
  show shapeCast S8x128 v36 _ (ix2 r cc) + v35 (ix2 r cc) = _
  rw [shapeCast_1ab_ab_apply]

/-- One half, as the 32-bit pattern the kernel compares against. -/
private theorem ofBits_half : Ideal.ofBits .f32 0x3F000000#32 = (((1 : ℝ) / 2 : ℝ) : EReal) := by
  simp [Ideal.ofBits, Ideal.ieee, -EReal.coe_mul]; norm_num

/-- A word below 2 ^ 32 compared with the zero word: the bit is 1 exactly when the number is 0. -/
private theorem cmpi_eq_zero_ofNat (n : Nat) (hn : n < 2 ^ 32) :
    IntOp.cmpi .eq (BitVec.ofNat 32 n) 0#32 = if n = 0 then 1#1 else 0#1 := by
  by_cases h : n = 0
  · subst h; rfl
  · rw [if_neg h]
    have hne : BitVec.ofNat 32 n ≠ 0#32 := by
      intro e
      have e' := congrArg BitVec.toNat e
      rw [BitVec.toNat_ofNat, Nat.mod_eq_of_lt hn] at e'
      exact h e'
    show BitVec.ofBool (BitVec.ofNat 32 n == 0#32) = 0#1
    rw [beq_eq_false_iff_ne.mpr hne]; rfl

/-- The position mask: 1 at (0, 0), 0 elsewhere. -/
private theorem mask_apply (r : Fin 8) (cc : Fin 128) :
    andi (cmpi .eq (iota .tc S8x128 32 [0] iota_S8x128_d0_w32) (broadcast S8x128 0#32))
        (cmpi .eq (iota .tc S8x128 32 [1] iota_S8x128_d1_w32) (broadcast S8x128 0#32)) (ix2 r cc)
      = if r.val = 0 ∧ cc.val = 0 then 1#1 else 0#1 := by
  show IntOp.andi (IntOp.cmpi .eq (iota .tc S8x128 32 [0] iota_S8x128_d0_w32 (ix2 r cc)) 0#32)
      (IntOp.cmpi .eq (iota .tc S8x128 32 [1] iota_S8x128_d1_w32 (ix2 r cc)) 0#32) = _
  rw [iota_single_apply, iota_single_apply]
  show IntOp.andi (IntOp.cmpi .eq (BitVec.ofNat 32 r.val) 0#32) (IntOp.cmpi .eq (BitVec.ofNat 32 cc.val) 0#32) = _
  rw [cmpi_eq_zero_ofNat _ (by have := r.isLt; omega), cmpi_eq_zero_ofNat _ (by have := cc.isLt; omega)]
  by_cases hr : r.val = 0
  · by_cases hc : cc.val = 0
    · rw [if_pos hr, if_pos hc, if_pos ⟨hr, hc⟩]; rfl
    · rw [if_pos hr, if_neg hc, if_neg (fun h => hc h.2)]; rfl
  · by_cases hc : cc.val = 0
    · rw [if_neg hr, if_pos hc, if_neg (fun h => hr h.1)]; rfl
    · rw [if_neg hr, if_neg hc, if_neg (fun h => hr h.1)]; rfl

/-- The comparison with one half, widened and converted: the indicator of "one half is below c". -/
private theorem target_bit (c h : EReal) :
    FloatOps.sitofp (F := Ideal) .f32 ((FloatOps.cmpf (F := Ideal) (φ := .f32) .ogt c h).setWidth 32) = Cert.Spec.ind (h < c) := by
  show (((((Ideal.cmp .ogt c h).setWidth 32).toInt : ℤ) : ℝ) : EReal) = _
  unfold Cert.Spec.ind Ideal.cmp
  by_cases hc : h < c
  · rw [if_pos hc]
    simp [hc]
  · rw [if_neg hc]
    simp [hc]

/-- A row's sum: the lane reduction of a 512 × 512 vector at row a. -/
private theorem rowsum_apply (x : FVec Ideal S512x512 .f32) (a : Fin 512) :
    multiReduction (F := Ideal) .add [1] S512 x 0x00000000#32 reduces_S512x512_S512 (.inl rfl) rfl (ix1 a)
      = ∑ a' : Fin 512, x (ix2 a a') := by
  refine (Ideal.multiReduction_add_single x _ reduces_S512x512_S512 _ _ (ix1 a)).trans ?_
  refine Finset.sum_congr rfl fun a' _ => congrArg x ?_
  funext d
  refine Fin.ext ?_
  match d with
  | ⟨0, _⟩ => rfl
  | ⟨1, _⟩ => rfl

/-- The sum of a 1 × 512 vector along its lane axis. -/
private theorem lanesum_apply (x : FVec Ideal S1x512 .f32) :
    multiReduction (F := Ideal) .add [1] S1 x 0x00000000#32 reduces_S1x512_S1 (.inl rfl) rfl (ix1 (0 : Fin 1))
      = ∑ a : Fin 512, x (ix2 (0 : Fin 1) a) := by
  refine (Ideal.multiReduction_add_single x _ reduces_S1x512_S1 _ _ (ix1 (0 : Fin 1))).trans ?_
  refine Finset.sum_congr rfl fun a _ => congrArg x ?_
  funext d
  refine Fin.ext ?_
  match d with
  | ⟨0, _⟩ => rfl
  | ⟨1, _⟩ => rfl

/-- The scalar read out of a 1 × 1 vector made from a one-element vector. -/
private theorem extract_apply (x : FVec Ideal S1 .f32) :
    extractAt ![0, 0] (shapeCast S1x1 x shapeCasts_S1_S1x1) inpos_S1x1_p0_0 = x (ix1 (0 : Fin 1)) := by
  unfold extractAt
  have e : (fun a : Fin S1x1.rank => (⟨(![0, 0] : Fin 2 → Nat) a, inpos_S1x1_p0_0 a⟩ : Fin (S1x1.size a)))
      = ix2 (0 : Fin 1) (0 : Fin 1) := by
    funext a
    match a with
    | ⟨0, _⟩ => rfl
    | ⟨1, _⟩ => rfl
  rw [e]
  exact shapeCast_a_1a_apply x _ (0 : Fin 1) (0 : Fin 1)

/-- The kernel's dimension numbers are the plain M × K by K × N ones. -/
private theorem dot_eq_plain : dot_S512x16_S16x512_S512x512_1_0_0_1_n_n = DotDims.plain 512 16 512 := rfl

/-- The cover count: the first block transposed times the second, read at (a, a'). -/
private theorem cover_apply (x4 x5 : Vec Ideal S1x16x512 .f32) (a a' : Fin 512) :
    matmul (F := Ideal) dot_S512x16_S16x512_S512x512_1_0_0_1_n_n none
        (transpose S512x16 [1, 0] (truncf .bf16 (shapeCast S16x512 x4 shapeCasts_S1x16x512_S16x512) bitsLt_bf16_f32)
          transposes_S16x512_p1_0_S512x16)
        (truncf .bf16 (shapeCast S16x512 x5 shapeCasts_S1x16x512_S16x512) bitsLt_bf16_f32)
        (constant S512x512 .f32 0x00000000#32) (ix2 a a')
      = ∑ k : Fin 16, x4 (ix3 (0 : Fin 1) k a) * x5 (ix3 (0 : Fin 1) k a') := by
  rw [dot_eq_plain]
  refine (Cert.Matmul.matmul_plain_apply none _ _ a a').trans ?_
  refine Finset.sum_congr rfl fun k _ => ?_
  rw [transpose_ix2_apply]
  show shapeCast S16x512 x4 _ (ix2 k a) * shapeCast S16x512 x5 _ (ix2 k a') = _
  rw [shapeCast_1ab_ab_apply, shapeCast_1ab_ab_apply]

/-- The tile's vector: the tile's sum of squared errors at position (0, 0), zero elsewhere. -/
theorem pay3_apply (x4 x5 : Vec Ideal S1x16x512 .f32) (x3 : Vec Ideal S1x512x512 .f32) (r : Fin 8) (cc : Fin 128) :
    k0_pay3 (F := Ideal) x4 x5 x3 (ix2 r cc) =
      if r.val = 0 ∧ cc.val = 0 then
        ∑ a : Fin 512, ∑ a' : Fin 512,
          (x3 (ix3 (0 : Fin 1) a a') - Cert.Spec.ind ((((1 : ℝ) / 2 : ℝ) : EReal) < ∑ k : Fin 16, x4 (ix3 (0 : Fin 1) k a) * x5 (ix3 (0 : Fin 1) k a')))
          * (x3 (ix3 (0 : Fin 1) a a') - Cert.Spec.ind ((((1 : ℝ) / 2 : ℝ) : EReal) < ∑ k : Fin 16, x4 (ix3 (0 : Fin 1) k a) * x5 (ix3 (0 : Fin 1) k a')))
      else 0 := by
  unfold k0_pay3
  simp only []
  rw [select_apply, mask_apply, broadcast_apply, broadcast_apply]
  by_cases h : r.val = 0 ∧ cc.val = 0
  · rw [if_pos h, if_pos h, select_one]
    refine (extract_apply _).trans ?_
    refine (lanesum_apply _).trans ?_
    refine Finset.sum_congr rfl fun a _ => ?_
    refine (shapeCast_a_1a_apply _ _ (0 : Fin 1) a).trans ?_
    refine (rowsum_apply _ a).trans ?_
    refine Finset.sum_congr rfl fun a' _ => ?_
    rw [mulf_apply, subf_apply, sitofp_apply, extui_apply, cmpf_apply, broadcast_apply, cover_apply,
      shapeCast_1ab_ab_apply, target_bit, Ideal.ofBits_def, ofBits_half]
  · rw [if_neg h, if_neg h, select_zero]
    exact Ideal.ofBits_zero_f32
end Cert.KernelIdeal.Hand

end
-- ==== Proof.KI.Accum.lean ====
/-
  What the body leaves in the output's buffer, as arithmetic on the blocks, and the accumulation across the grid.

  At the first point of a batch entry the body leaves the zero block plus the tile's vector; at every other point what the
  buffer held plus the tile's vector. The tile's vector is the tile's sum of squared errors at position (0, 0) and zero
  elsewhere, so after point n the buffer holds, at (0, 0), the sum of the contributions of the points of n's batch entry
  up to n, and zero elsewhere.
-/
import proofs.«123174_j446676599061_1_alg».proof.Proof.KI.Contrib
import proofs.«123174_j446676599061_1_alg».proof.Proof.KI.PayValue
import Idealize.ShloMosaic.Lib.Pipeline.Value
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

section Pieces
variable {F : FTy → Type} [FloatOps F]

/-- The whole-block rectangle's offsets are zero. -/
theorem hz3 : (![0, 0, 0] : Fin 3 → Nat) = fun _ => 0 := funext fun a => by fin_cases a <;> rfl

/-- At every other point the body leaves what the buffer held plus the tile's vector. -/
theorem outNext_eq (c : Dev nD) (i : grid0.Coords) (arg3 : Memref sig .tc .vmem S1x512x512 .f32) (harg3 : arg3.IsWhole)
    (arg4 : Memref sig .tc .vmem S1x16x512 .f32) (harg4 : arg4.IsWhole) (arg5 : Memref sig .tc .vmem S1x16x512 .f32) (harg5 : arg5.IsWhole)
    (arg6 : Memref sig .tc .vmem S1x8x128 .f32) (harg6 : arg6.IsWhole) (hc : ¬isFirst i)
    (x3 : Vec F S1x512x512 .f32) (x4 x5 : Vec F S1x16x512 .f32) (x6 : Vec F S1x8x128 .f32) :
    outNext c i arg3 harg3 arg4 harg4 arg5 harg5 arg6 harg6 hc x3 x4 x5 x6 = k0_pay1 (k0_pay3 x4 x5 x3) x6 := by
  unfold outNext
  rw [View.read_writes_eq_canon _ _ _ (coverNext c i arg3 harg3 arg4 harg4 arg5 harg5 arg6 harg6 hc x3 x4 x5 x6)]
  unfold runNext
  dsimp only
  sl_unfold_words
  rw [View.canon_unit_zero (S := S1x8x128) hz3]
  simp only [View.readAt_eq_ld, harg3.read_unread, harg4.read_unread, harg5.read_unread, harg6.read_unread,
    View.ld_unit_zero (S := S1x16x512) hz3, View.ld_unit_zero (S := S1x512x512) hz3, View.ld_unit_zero (S := S1x8x128) hz3]

/-- At the first point of a batch entry the body leaves the zero block plus the tile's vector. -/
theorem outFirst_eq (c : Dev nD) (i : grid0.Coords) (arg3 : Memref sig .tc .vmem S1x512x512 .f32) (harg3 : arg3.IsWhole)
    (arg4 : Memref sig .tc .vmem S1x16x512 .f32) (harg4 : arg4.IsWhole) (arg5 : Memref sig .tc .vmem S1x16x512 .f32) (harg5 : arg5.IsWhole)
    (arg6 : Memref sig .tc .vmem S1x8x128 .f32) (harg6 : arg6.IsWhole) (hc : isFirst i)
    (x3 : Vec F S1x512x512 .f32) (x4 x5 : Vec F S1x16x512 .f32) :
    outFirst c i arg3 harg3 arg4 harg4 arg5 harg5 arg6 harg6 hc x3 x4 x5 = k0_pay1 (k0_pay3 x4 x5 x3) (k0_pay2 (F := F)) := by
  unfold outFirst
  rw [View.read_writes_eq_canon _ _ _ (coverFirst c i arg3 harg3 arg4 harg4 arg5 harg5 arg6 harg6 hc x3 x4 x5)]
  unfold runFirst
  dsimp only
  sl_unfold_words
  rw [View.canon_cons_unit_zero (S := S1x8x128) hz3, View.readCov_unit_zero (S := S1x8x128) _ hz3]
  simp only [View.readAt_eq_ld, harg3.read_unread, harg4.read_unread, harg5.read_unread,
    View.ld_unit_zero (S := S1x16x512) hz3, View.ld_unit_zero (S := S1x512x512) hz3]

end Pieces

section Accumulation
variable (V : (c : Dev nD) → (b : Ref sig .tc) → Buf (Elt Ideal) ((c : Thread nD τ).loc b))

/-- The first case at a position: the tile's sum at (0, 0), zero elsewhere. -/
theorem first_apply (x3 : Vec Ideal S1x512x512 .f32) (x4 x5 : Vec Ideal S1x16x512 .f32) (r : Fin 8) (cc : Fin 128) :
    k0_pay1 (F := Ideal) (k0_pay3 x4 x5 x3) (k0_pay2 (F := Ideal)) (ix3 (0 : Fin 1) r cc)
      = if r.val = 0 ∧ cc.val = 0 then blockSum x3 x4 x5 else 0 := by
  rw [pay1_apply, pay2_apply, pay3_apply, zero_add]
  rfl

/-- The other case at a position: what the buffer held there plus the tile's sum at (0, 0), plus zero elsewhere. -/
theorem next_apply (x3 : Vec Ideal S1x512x512 .f32) (x4 x5 : Vec Ideal S1x16x512 .f32) (x6 : Vec Ideal S1x8x128 .f32)
    (r : Fin 8) (cc : Fin 128) :
    k0_pay1 (F := Ideal) (k0_pay3 x4 x5 x3) x6 (ix3 (0 : Fin 1) r cc)
      = x6 (ix3 (0 : Fin 1) r cc) + (if r.val = 0 ∧ cc.val = 0 then blockSum x3 x4 x5 else 0) := by
  rw [pay1_apply, pay3_apply]
  rfl

/-- After point n the buffer holds, at (0, 0), the sum of the contributions of the points of n's batch entry up to n, and
    zero elsewhere. -/
theorem outsAt_apply (c : Dev nD) (n : ℕ) (hn : n < cfg0.N) (r : Fin 8) (cc : Fin 128) :
    outsAt (F := Ideal) V c n hn (ix3 (0 : Fin 1) r cc)
      = if r.val = 0 ∧ cc.val = 0 then ∑ s ∈ Finset.range (n % 16 + 1), contribN V c (n - n % 16 + s) else 0 := by
  induction n using Nat.strong_induction_on with
  | _ n ih =>
    by_cases h0 : n % 16 = 0
    · refine (congrFun (outsAt_first V c ⟨n, hn⟩ h0) (ix3 (0 : Fin 1) r cc)).trans ?_
      refine (congrFun (outFirst_eq (F := Ideal) c (grid0.coords ⟨n, hn⟩) (ms0 ⟨n, hn⟩) (hs0 ⟨n, hn⟩) (ms1 ⟨n, hn⟩) (hs1 ⟨n, hn⟩)
        (ms2 ⟨n, hn⟩) (hs2 ⟨n, hn⟩) (ms3 ⟨n, hn⟩) (hs3 ⟨n, hn⟩) ((isFirst_iff ⟨n, hn⟩).mpr h0)
        (iblk V c 0 ⟨n, hn⟩) (iblk V c 1 ⟨n, hn⟩) (iblk V c 2 ⟨n, hn⟩)) (ix3 (0 : Fin 1) r cc)).trans ?_
      refine (first_apply (iblk V c 0 ⟨n, hn⟩) (iblk V c 1 ⟨n, hn⟩) (iblk V c 2 ⟨n, hn⟩) r cc).trans ?_
      by_cases hrc : r.val = 0 ∧ cc.val = 0
      · rw [if_pos hrc, if_pos hrc, h0, Finset.sum_range_one, Nat.sub_zero, Nat.add_zero]
        unfold contribN
        rw [dif_pos hn]
        rfl
      · rw [if_neg hrc, if_neg hrc]
    · refine (congrFun (outsAt_next V c ⟨n, hn⟩ h0) (ix3 (0 : Fin 1) r cc)).trans ?_
      refine (congrFun (outNext_eq (F := Ideal) c (grid0.coords ⟨n, hn⟩) (ms0 ⟨n, hn⟩) (hs0 ⟨n, hn⟩) (ms1 ⟨n, hn⟩) (hs1 ⟨n, hn⟩)
        (ms2 ⟨n, hn⟩) (hs2 ⟨n, hn⟩) (ms3 ⟨n, hn⟩) (hs3 ⟨n, hn⟩) (fun h => h0 ((isFirst_iff ⟨n, hn⟩).mp h))
        (iblk V c 0 ⟨n, hn⟩) (iblk V c 1 ⟨n, hn⟩) (iblk V c 2 ⟨n, hn⟩)
        (outsAt V c (n - 1) (Nat.lt_of_le_of_lt (Nat.sub_le _ _) hn))) (ix3 (0 : Fin 1) r cc)).trans ?_
      refine (next_apply (iblk V c 0 ⟨n, hn⟩) (iblk V c 1 ⟨n, hn⟩) (iblk V c 2 ⟨n, hn⟩)
        (outsAt V c (n - 1) (Nat.lt_of_le_of_lt (Nat.sub_le _ _) hn)) r cc).trans ?_
      rw [ih (n - 1) (by omega) (Nat.lt_of_le_of_lt (Nat.sub_le _ _) hn)]
      by_cases hrc : r.val = 0 ∧ cc.val = 0
      · rw [if_pos hrc, if_pos hrc, if_pos hrc]
        have e1 : (n - 1) % 16 + 1 = n % 16 := by omega
        have e2 : n - 1 - (n - 1) % 16 = n - n % 16 := by omega
        have e3 : n - n % 16 + n % 16 = n := by omega
        rw [Finset.sum_range_succ _ (n % 16), e1, e2, e3]
        refine congrArg (fun z => _ + z) ?_
        unfold contribN
        rw [dif_pos hn]
        rfl
      · rw [if_neg hrc, if_neg hrc, if_neg hrc, add_zero]

end Accumulation

end Cert.KernelIdeal.Hand

end
-- ==== Proof.SpecLaws.lean ====
/-
  The algebra over the specification: the threshold one half reads as the threshold zero on a table of zeros and ones,
  the sum over all (b, p, q) regroups into 512 × 512 tiles, and a sum supported on one position per batch entry is the
  sum over the batch entries.
-/
import proofs.«123174_j446676599061_1_alg».proof.Proof.Spec
import Idealize.ShloMosaic.PureOps.Ideal.Laws

noncomputable section

namespace Cert.Spec

open Idealize.ShloMosaic Idealize.ShloMosaic.ValueIdx

/-- The word of the float literal one half denotes the real one half. -/
theorem ofBits_half : Ideal.ofBits .f32 0x3F000000#32 = (((1 : ℝ) / 2 : ℝ) : EReal) := by
  simp [Ideal.ofBits, Ideal.ieee, -EReal.coe_mul]; norm_num

/-- A one-bit word read unsigned is the indicator of the proposition it decides. -/
theorem uitofp_ofBool (P : Prop) [Decidable P] :
    (FloatOps.uitofp (F := Ideal) .f32 (BitVec.ofBool (decide P)) : EReal) = ind P := by
  show (((BitVec.ofBool (decide P)).toNat : ℝ) : EReal) = ind P
  by_cases h : P <;> simp [ind, h]

/-- A one-bit word zero-extended to 32 bits and read signed is the indicator of the proposition it decides. -/
theorem sitofp_extui_ofBool (P : Prop) [Decidable P] :
    (FloatOps.sitofp (F := Ideal) .f32 ((BitVec.ofBool (decide P)).setWidth 32) : EReal) = ind P := by
  show (((((BitVec.ofBool (decide P)).setWidth 32).toInt : ℤ) : ℝ) : EReal) = ind P
  by_cases h : P <;> simp [ind, h] <;> decide

/-- A finite sum of zeros and ones is a natural number. -/
theorem sum_zero_one_nat {ι : Type*} (s : Finset ι) (f : ι → EReal) (hf : ∀ k, f k = 0 ∨ f k = 1) :
    ∃ n : ℕ, ∑ k ∈ s, f k = ((n : ℝ) : EReal) := by
  classical
  induction s using Finset.induction_on with
  | empty => exact ⟨0, by simp⟩
  | insert a s ha ih =>
    obtain ⟨n, hn⟩ := ih
    rw [Finset.sum_insert ha, hn]
    rcases hf a with h | h
    · exact ⟨n, by rw [h, zero_add]⟩
    · refine ⟨n + 1, ?_⟩
      rw [h, ← EReal.coe_one, ← EReal.coe_add]
      congr 1
      push_cast
      ring

/-- On a table of zeros and ones the cover count is a natural number. -/
theorem cov_nat (M : SM.Idx → EReal) (hM : ∀ x, M x = 0 ∨ M x = 1) (b : Fin 16) (p q : Fin 2048) :
    ∃ n : ℕ, cov M b p q = ((n : ℝ) : EReal) := by
  unfold cov
  refine sum_zero_one_nat Finset.univ _ fun k => ?_
  rcases hM (ix3 b k p) with h | h <;> rcases hM (ix3 b k q) with h' | h' <;> simp [h, h']

/-- A natural number exceeds one half exactly when it exceeds zero, so the two thresholds give one target. -/
theorem tgt_half (M : SM.Idx → EReal) (hM : ∀ x, M x = 0 ∨ M x = 1) (b : Fin 16) (p q : Fin 2048) :
    tgt ((((1 : ℝ) / 2 : ℝ) : EReal)) M b p q = tgt 0 M b p q := by
  obtain ⟨n, hn⟩ := cov_nat M hM b p q
  have key : ((((1 : ℝ) / 2 : ℝ) : EReal) < cov M b p q) ↔ ((0 : EReal) < cov M b p q) := by
    rw [hn, ← EReal.coe_zero, EReal.coe_lt_coe_iff, EReal.coe_lt_coe_iff]
    constructor
    · intro h; linarith
    · intro h
      have h1 : 0 < n := Nat.cast_pos.mp h
      have h2 : (1 : ℝ) ≤ n := by exact_mod_cast h1
      linarith
  unfold tgt ind
  by_cases h : (0 : EReal) < cov M b p q
  · rw [if_pos h, if_pos (key.mpr h)]
  · rw [if_neg h, if_neg (fun h' => h (key.mp h'))]

/-- Hence the two thresholds give one squared error at every position … -/
theorem sq_half (M : SM.Idx → EReal) (hM : ∀ x, M x = 0 ∨ M x = 1) (R : SR.Idx → EReal) (b : Fin 16)
    (p q : Fin 2048) : sq ((((1 : ℝ) / 2 : ℝ) : EReal)) M R b p q = sq 0 M R b p q := by
  unfold sq
  rw [tgt_half M hM]

/-- … and one sum of squared errors. -/
theorem total_half (M : SM.Idx → EReal) (hM : ∀ x, M x = 0 ∨ M x = 1) (R : SR.Idx → EReal) :
    total ((((1 : ℝ) / 2 : ℝ) : EReal)) M R = total 0 M R := by
  unfold total
  exact Finset.sum_congr rfl fun i _ => sq_half M hM R (i 0) (i 1) (i 2)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {N : Type*} [AddCommMonoid N] {n0 n1 n2 : Nat} (f : (⟨3, ![n0, n1, n2]⟩ : Shape).Idx → N) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An axis of 2048 is four tiles of 512: a position is its tile and its place inside the tile. -/
def rowEquiv : Fin 4 × Fin 512 ≃ Fin 2048 where
  toFun x := row x.1 x.2
  invFun p := (⟨p.val / 512, by omega⟩, ⟨p.val % 512, Nat.mod_lt _ (by norm_num)⟩)
  left_inv x := by
    rcases x with ⟨i, a⟩
    refine Prod.ext (Fin.ext ?_) (Fin.ext ?_)
    · show (512 * i.val + a.val) / 512 = i.val
      omega
    · show (512 * i.val + a.val) % 512 = a.val
      omega
  right_inv p := by
    refine Fin.ext ?_
    show 512 * (p.val / 512) + p.val % 512 = p.val
    omega

/-- A sum along an axis of 2048 is the sum over the tiles of the sums inside each tile. -/
theorem sum_row {N : Type*} [AddCommMonoid N] (g : Fin 2048 → N) :
    ∑ p, g p = ∑ i : Fin 4, ∑ a : Fin 512, g (row i a) := by
  rw [← Equiv.sum_comp rowEquiv g, Fintype.sum_prod_type]
  rfl

/-- The sum over all (b, p, q) is the sum over the batch entries and the sixteen tiles of each. -/
theorem total_eq_tiles (θ : EReal) (M : SM.Idx → EReal) (R : SR.Idx → EReal) :
    total θ M R = ∑ b : Fin 16, ∑ i : Fin 4, ∑ j : Fin 4, tile θ M R b i j := by
  unfold total tile
  rw [sum_idx3 (fun i : SR.Idx => sq θ M R (i 0) (i 1) (i 2))]
  refine Finset.sum_congr rfl fun b _ => ?_
  show ∑ p : Fin 2048, ∑ q : Fin 2048, sq θ M R b p q = _
  rw [sum_row (fun p => ∑ q : Fin 2048, sq θ M R b p q)]
  refine Finset.sum_congr rfl fun i _ => ?_
  refine Eq.trans (Finset.sum_congr rfl fun a _ => sum_row (fun q => sq θ M R b (row i a) q)) ?_
  exact Finset.sum_comm

/-- A sum supported on position (0, 0) of each batch entry is the sum over the batch entries. -/
theorem sum_acc (A : (⟨3, ![16, 8, 128]⟩ : Shape).Idx → EReal)
    (h : ∀ i, ¬((i 1).val = 0 ∧ (i 2).val = 0) → A i = 0) :
    ∑ i, A i = ∑ b : Fin 16, A (ix3 b (0 : Fin 8) (0 : Fin 128)) := by
  rw [sum_idx3]
  refine Finset.sum_congr rfl fun b _ => ?_
  rw [Fintype.sum_eq_single (0 : Fin 8), Fintype.sum_eq_single (0 : Fin 128)]
  · intro l hl
    refine h _ fun hc => hl (Fin.ext ?_)
    exact hc.2
  · intro s hs
    refine Finset.sum_eq_zero fun l _ => h _ fun hc => hs (Fin.ext ?_)
    exact hc.1

end Cert.Spec

end
-- ==== Proof.KI.ArrValue.lean ====
/-
  The kernel's blocks and its output array, in terms of the arrays.

  The grid's 256 points are the triples (b, i, j) in row-major order: point 16 b + 4 i + j works on batch entry b, row
  tile i and column tile j. Its score block is the 512 × 512 tile (i, j) of batch entry b of the score array; its two
  membership blocks are the sixteen clusters of batch entry b at the positions of row tile i and of column tile j. So
  the point's contribution is the specification's tile sum. The output array's block b is written back once, after
  the last point of batch entry b, with what the accumulator then holds; blocks of different batch entries are disjoint.
-/
import proofs.«123174_j446676599061_1_alg».proof.Proof.KI.Contrib
import proofs.«123174_j446676599061_1_alg».proof.Proof.SpecLaws
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The block indices of the four windows at grid point `t`, in terms of the point's position: the batch entry is
    `t / 16`, the row tile `(t / 4) % 4`, the column tile `t % 4`. -/
theorem index_facts : ∀ t : Fin cfg0.N,
    win0_0.index t (0 : Fin 3) = t.val / 16 ∧ win0_0.index t (1 : Fin 3) = (t.val / 4) % 4 ∧ win0_0.index t (2 : Fin 3) = t.val % 4
    ∧ win0_1.index t (0 : Fin 3) = t.val / 16 ∧ win0_1.index t (1 : Fin 3) = 0 ∧ win0_1.index t (2 : Fin 3) = (t.val / 4) % 4
    ∧ win0_2.index t (0 : Fin 3) = t.val / 16 ∧ win0_2.index t (1 : Fin 3) = 0 ∧ win0_2.index t (2 : Fin 3) = t.val % 4
    ∧ win0_3.index t (0 : Fin 3) = t.val / 16 ∧ win0_3.index t (1 : Fin 3) = 0 ∧ win0_3.index t (2 : Fin 3) = 0 :=
  (by decide +kernel : ∀ t : Fin grid0.N, _)

variable (V : (c : Dev nD) → (b : Ref sig .tc) → Buf (Elt Ideal) ((c : Thread nD τ).loc b))

/-- The score block at point `t`, entry `(a, a')`, is the score array's entry at the block's offsets plus `(a, a')`. -/
theorem iblk0_apply (c : Dev nD) (t : Fin cfg0.N) (a a' : Fin 512) (k : S16x2048x2048.Idx)
    (h0 : (k 0).val = t.val / 16) (h1 : (k 1).val = 512 * ((t.val / 4) % 4) + a.val)
    (h2 : (k 2).val = 512 * (t.val % 4) + a'.val) :
    (iblk V c 0 t : Vec Ideal S1x512x512 .f32) (ix3 (0 : Fin 1) a a') = (V c main_arg0 : S16x2048x2048.Idx → EReal) k := by
  obtain ⟨e0, e1, e2, -⟩ := index_facts t
  unfold iblk
  rw [View.read_apply]
  show V c main_arg0 _ = V c main_arg0 k
  congr 1
  funext d
  apply Fin.ext
  match d with
  | ⟨0, _⟩ => show win0_0.index t (0 : Fin 3) * 1 + 1 * 0 = (k 0).val; rw [e0, h0]; omega
  | ⟨1, _⟩ => show win0_0.index t (1 : Fin 3) * 512 + 1 * a.val = (k 1).val; rw [e1, h1]; omega
  | ⟨2, _⟩ => show win0_0.index t (2 : Fin 3) * 512 + 1 * a'.val = (k 2).val; rw [e2, h2]; omega

/-- The first membership block at point `t`, entry `(k, a)`: cluster `k`, position `a` of the point's row tile. -/
theorem iblk1_apply (c : Dev nD) (t : Fin cfg0.N) (k : Fin 16) (a : Fin 512) (x : S16x16x2048.Idx)
    (h0 : (x 0).val = t.val / 16) (h1 : (x 1).val = k.val) (h2 : (x 2).val = 512 * ((t.val / 4) % 4) + a.val) :
    (iblk V c 1 t : Vec Ideal S1x16x512 .f32) (ix3 (0 : Fin 1) k a) = (V c main_v17 : S16x16x2048.Idx → EReal) x := by
  obtain ⟨-, -, -, e0, e1, e2, -⟩ := index_facts t
  unfold iblk
  rw [View.read_apply]
  show V c main_v17 _ = V c main_v17 x
  congr 1
  funext d
  apply Fin.ext
  match d with
  | ⟨0, _⟩ => show win0_1.index t (0 : Fin 3) * 1 + 1 * 0 = (x 0).val; rw [e0, h0]; omega
  | ⟨1, _⟩ => show win0_1.index t (1 : Fin 3) * 16 + 1 * k.val = (x 1).val; rw [e1, h1]; omega
  | ⟨2, _⟩ => show win0_1.index t (2 : Fin 3) * 512 + 1 * a.val = (x 2).val; rw [e2, h2]; omega

/-- The second membership block at point `t`, entry `(k, a')`: cluster `k`, position `a'` of the point's column tile. -/
theorem iblk2_apply (c : Dev nD) (t : Fin cfg0.N) (k : Fin 16) (a' : Fin 512) (x : S16x16x2048.Idx)
    (h0 : (x 0).val = t.val / 16) (h1 : (x 1).val = k.val) (h2 : (x 2).val = 512 * (t.val % 4) + a'.val) :
    (iblk V c 2 t : Vec Ideal S1x16x512 .f32) (ix3 (0 : Fin 1) k a') = (V c main_v17 : S16x16x2048.Idx → EReal) x := by
  obtain ⟨-, -, -, -, -, -, e0, e1, e2, -⟩ := index_facts t
  unfold iblk
  rw [View.read_apply]
  show V c main_v17 _ = V c main_v17 x
  congr 1
  funext d
  apply Fin.ext
  match d with
  | ⟨0, _⟩ => show win0_2.index t (0 : Fin 3) * 1 + 1 * 0 = (x 0).val; rw [e0, h0]; omega
  | ⟨1, _⟩ => show win0_2.index t (1 : Fin 3) * 16 + 1 * k.val = (x 1).val; rw [e1, h1]; omega
  | ⟨2, _⟩ => show win0_2.index t (2 : Fin 3) * 512 + 1 * a'.val = (x 2).val; rw [e2, h2]; omega

/-- Point `16 b + 4 i + j` contributes the sum of the squared errors over tile `(i, j)` of batch entry `b`, at the
    threshold one half. -/
theorem contribN_eq_tile (c : Dev nD) (b : Fin 16) (i j : Fin 4) :
    contribN V c (16 * b.val + 4 * i.val + j.val)
      = Cert.Spec.tile half (V c main_v17) (V c main_arg0) b i j := by
  have hN : 16 * b.val + 4 * i.val + j.val < cfg0.N := by rw [show cfg0.N = 256 from N_0]; omega
  unfold contribN
  rw [dif_pos hN]
  unfold contrib blockSum Cert.Spec.tile Cert.Spec.sq Cert.Spec.tgt Cert.Spec.cov
  refine Finset.sum_congr rfl fun a _ => Finset.sum_congr rfl fun a' _ => ?_
  have hb : (16 * b.val + 4 * i.val + j.val) / 16 = b.val := by omega
  have hi : ((16 * b.val + 4 * i.val + j.val) / 4) % 4 = i.val := by omega
  have hj : (16 * b.val + 4 * i.val + j.val) % 4 = j.val := by omega
  have e0 := iblk0_apply V c ⟨16 * b.val + 4 * i.val + j.val, hN⟩ a a' (ix3 b (Cert.Spec.row i a) (Cert.Spec.row j a'))
    hb.symm (by show 512 * i.val + a.val = _; rw [hi]) (by show 512 * j.val + a'.val = _; rw [hj])
  have e1 : ∀ k : Fin 16, (iblk V c 1 ⟨16 * b.val + 4 * i.val + j.val, hN⟩ : Vec Ideal S1x16x512 .f32) (ix3 (0 : Fin 1) k a)
      = (V c main_v17 : S16x16x2048.Idx → EReal) (ix3 b k (Cert.Spec.row i a)) := fun k =>
    iblk1_apply V c _ k a _ hb.symm rfl (by show 512 * i.val + a.val = _; rw [hi])
  have e2 : ∀ k : Fin 16, (iblk V c 2 ⟨16 * b.val + 4 * i.val + j.val, hN⟩ : Vec Ideal S1x16x512 .f32) (ix3 (0 : Fin 1) k a')
      = (V c main_v17 : S16x16x2048.Idx → EReal) (ix3 b k (Cert.Spec.row j a')) := fun k =>
    iblk2_apply V c _ k a' _ hb.symm rfl (by show 512 * j.val + a'.val = _; rw [hj])
  rw [e0]
  simp only [e1, e2]

/-- The write-backs of different points go to disjoint blocks of the output array: each is after the last point of a
    batch entry, and the block's first coordinate is the batch entry. -/
theorem out_disjoint : ∀ t t' : Fin cfg0.N, (cfg0.win 3).flush t = true → (cfg0.win 3).flush t' = true → t ≠ t' →
    Disjoint ((cfg0.win 3).blk t).view.set ((cfg0.win 3).blk t').view.set := by
  intro t t' hf hf' hne
  have h15 : t.val % 16 = 15 := (flush0_3 t).mp hf
  have h15' : t'.val % 16 = 15 := (flush0_3 t').mp hf'
  obtain ⟨-, -, -, -, -, -, -, -, -, e0, -⟩ := index_facts t
  obtain ⟨-, -, -, -, -, -, -, -, -, e0', -⟩ := index_facts t'
  have hv : t.val ≠ t'.val := fun h => hne (Fin.ext h)
  show Disjoint ((View.whole main_v18).slice (win0_3.rect t)).set ((View.whole main_v18).slice (win0_3.rect t')).set
  rw [View.set_slice_whole, View.set_slice_whole]
  refine Rect.unit_disjoint (0 : Fin 3) ?_
  show win0_3.index t (0 : Fin 3) * 1 + 1 ≤ win0_3.index t' (0 : Fin 3) * 1 ∨ win0_3.index t' (0 : Fin 3) * 1 + 1 ≤ win0_3.index t (0 : Fin 3) * 1
  rw [e0, e0']
  omega

/-- Block `b` of the output array after the run is what the accumulator holds after the last point of batch entry `b`. -/
theorem outArr_apply (c : Dev nD) (b : Fin 16) (r : Fin 8) (cc : Fin 128) (hn : 16 * b.val + 15 < cfg0.N) :
    (dat0 (F := Ideal) V c).arrAt 3 cfg0.N (ix3 b r cc)
      = outsAt (F := Ideal) V c (16 * b.val + 15) hn (ix3 (0 : Fin 1) r cc) := by
  have hf : (cfg0.win 3).flush ⟨16 * b.val + 15, hn⟩ = true :=
    (flush0_3 _).mpr (by show (16 * b.val + 15) % 16 = 15; omega)
  obtain ⟨-, -, -, -, -, -, -, -, -, e0, e1, e2⟩ := index_facts ⟨16 * b.val + 15, hn⟩
  have hemb : ((cfg0.win 3).blk ⟨16 * b.val + 15, hn⟩).view.emb (ix3 (0 : Fin 1) r cc) = (ix3 b r cc : S16x8x128.Idx) := by
    funext d
    apply Fin.ext
    match d with
    | ⟨0, _⟩ =>
      show win0_3.index ⟨16 * b.val + 15, hn⟩ (0 : Fin 3) * 1 + 1 * 0 = b.val
      rw [e0]; show (16 * b.val + 15) / 16 * 1 + 1 * 0 = b.val; omega
    | ⟨1, _⟩ =>
      show win0_3.index ⟨16 * b.val + 15, hn⟩ (1 : Fin 3) * 8 + 1 * r.val = r.val
      rw [e1]; omega
    | ⟨2, _⟩ =>
      show win0_3.index ⟨16 * b.val + 15, hn⟩ (2 : Fin 3) * 128 + 1 * cc.val = cc.val
      rw [e2]; omega
  have h := (dat0 (F := Ideal) V c).arrAt_emb_eq_flushed 3 out_disjoint ⟨16 * b.val + 15, hn⟩ hf (ix3 (0 : Fin 1) r cc)
  rw [hemb] at h
  rw [h]
  show (dat0 (F := Ideal) V c).after 3 ⟨16 * b.val + 15, hn⟩ _ = _
  rw [after3]
  rfl

end Cert.KernelIdeal.Hand

end
-- ==== Proof.KI.HostValue.lean ====
/-
  What the kernel program's two host stretches compute, read off the fold of their operations over any contents of the
  core's buffers: the first stretch leaves the scores' array as it found it and writes the membership table the
  reference builds from the same integer argument by the same nineteen operations; the second divides the sum of the
  region's output by the constant it names.
-/
import proofs.«123174_j446676599061_1_alg».proof.Proof.Gen.KernelIdeal.Launch
import proofs.«123174_j446676599061_1_alg».proof.Proof.RefRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- No operation of the first stretch writes the scores' array: it is as the stretch found it. -/
theorem after0_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide)))

/-- The first stretch writes the membership table the reference's first nineteen operations build from the same
    integer argument. -/
theorem after0_v17 (W : Valuation τ sig (Elt F)) :
    StableHlo.after (hostOps0 (F := F)) W (Proc.devRef .tc main_v17)
      = Cert.ReferenceIdeal.ReadP.val_main_v17 (F := F) (W (Proc.devRef .tc main_arg1)) := by
  show StableHlo.after hostOps0 W (Proc.devRef .tc main_v17) = _
  after_results
  rfl

/-- The second stretch writes the sum of the region's output over the constant the program names. -/
theorem after1_v20 (W : Valuation τ sig (Elt F)) :
    StableHlo.after (hostOps1 (F := F)) W (Proc.devRef .tc main_v20)
      = Host.divf (Host.reduceAdd (W (Proc.devRef .tc main_v18)) (constant (F := F) S_ .f32 0x00000000#32)
          reducesTo_S16x8x128_S_d0_1_2 h_S_) (constant (F := F) S_ .f32 0x4C800000#32) := by
  show StableHlo.after hostOps1 W (Proc.devRef .tc main_v20) = _
  after_results

end Cert.KernelIdeal.Hand

end
-- ==== Proof.KI.KernelValue.lean ====
/-
  The kernel program's result, at the ideal values, as the specification's total.

  After the region the [16, 8, 128] output array holds, at (b, 0, 0), the sum of the sixteen tile sums of batch entry b,
  and zero everywhere else. The host then adds the whole array up and divides by the number of scores. So the result is
  the sum over b of the sums over the 4 × 4 tiles of the tiles' sums, which is the sum over every (b, p, q), divided by
  that number. The membership table the tiles read is the one the first host stretch builds from the cluster sizes, and
  the scores are the first argument as launched.
-/
import proofs.«123174_j446676599061_1_alg».proof.Proof.KI.Run
import proofs.«123174_j446676599061_1_alg».proof.Proof.KI.Accum
import proofs.«123174_j446676599061_1_alg».proof.Proof.KI.ArrValue
import proofs.«123174_j446676599061_1_alg».proof.Proof.KI.HostValue
import proofs.«123174_j446676599061_1_alg».proof.Proof.SpecLaws
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem

/-- A sum over sixteen consecutive positions is the sum over a 4 × 4 table of them, rows first. -/
theorem sum_range16 (g : ℕ → EReal) : ∑ s ∈ Finset.range 16, g s = ∑ i : Fin 4, ∑ j : Fin 4, g (4 * i.val + j.val) := by
  simp only [Finset.sum_range_succ, Finset.sum_range_zero, Fin.sum_univ_four, zero_add]
  simp only [Fin.val_zero, Fin.val_one, Fin.val_two, show ((3 : Fin 4) : ℕ) = 3 from rfl, Nat.mul_zero, Nat.mul_one, Nat.zero_add,
    Nat.add_zero, Nat.reduceMul, Nat.reduceAdd]
  ac_rfl

/-- The host's closing operations at the ideal values: the sum of every entry, divided by the constant. -/
theorem tail_apply (X : Vec Ideal S16x8x128 .f32) (i : S_.Idx) :
    Host.divf (Host.reduceAdd X (constant (F := Ideal) S_ .f32 0x00000000#32) reducesTo_S16x8x128_S_d0_1_2 h_S_)
        (constant (F := Ideal) S_ .f32 0x4C800000#32) i
      = Ideal.div (∑ j : S16x8x128.Idx, X j) (Ideal.ofBits .f32 0x4C800000#32) := by
  have hsum : Host.reduceAdd X (constant (F := Ideal) S_ .f32 0x00000000#32) reducesTo_S16x8x128_S_d0_1_2 h_S_ i = ∑ j : S16x8x128.Idx, X j := by
    generalize X = y0
    simp only [Host.reduceAdd, Ideal.hostReduceAdd_def]
    refine (Ideal.hostReduceAdd_total reducesTo_S16x8x128_S_d0_1_2 (fun b => b.elim0) y0 _ i).trans ?_
    rw [show (constant (F := Ideal) S_ .f32 0x00000000#32) (Shape.Idx.first h_S_) = Ideal.ofBits .f32 0x00000000#32 from rfl,
      Ideal.ofBits_zero_f32, zero_add]
  show FloatOps.hostDivf (Host.reduceAdd X (constant (F := Ideal) S_ .f32 0x00000000#32) reducesTo_S16x8x128_S_d0_1_2 h_S_ i)
      (constant (F := Ideal) S_ .f32 0x4C800000#32 i) = _
  rw [Ideal.hostDivf_def, hsum]
  rfl

variable (m : (ℓ : Loc nD τ sig) → Buf (Elt Ideal) ℓ)

/-- The region's output array, the membership table and the scores as the region finds them, each named at its
    literal shape. -/
abbrev outA (c : Dev nD) : S16x8x128.Idx → EReal := outArr m c
abbrev Marr (c : Dev nD) : S16x16x2048.Idx → EReal := V1 m c main_v17
abbrev Rarr (c : Dev nD) : S16x2048x2048.Idx → EReal := V1 m c main_arg0

/-- The membership table is the one the reference builds from the same cluster sizes; the scores are as launched. -/
theorem Marr_eq (c : Dev nD) : Marr m c = Cert.ReferenceIdeal.ReadP.val_main_v17 (F := Ideal) (m ((c : Thread nD τ).loc main_arg1)) :=
  after0_v17 (W0 m c)
theorem Rarr_eq (c : Dev nD) : Rarr m c = m ((c : Thread nD τ).loc main_arg0) :=
  after0_arg0 (W0 m c)

/-- Off the entries (b, 0, 0) the output array is zero. -/
theorem outA_off (c : Dev nD) (j : S16x8x128.Idx) (h : ¬((j 1).val = 0 ∧ (j 2).val = 0)) : outA m c j = 0 := by
  obtain ⟨b, r, cc, rfl⟩ : ∃ (b : Fin 16) (r : Fin 8) (cc : Fin 128), j = ix3 b r cc := ⟨j 0, j 1, j 2, eq_ix3 j⟩
  have hn : 16 * b.val + 15 < cfg0.N := by have := b.isLt; rw [show cfg0.N = 256 from N_0]; omega
  refine (outArr_apply (V1 m) c b r cc hn).trans ?_
  refine (outsAt_apply (V1 m) c _ hn r cc).trans ?_
  exact if_neg h

/-- At (b, 0, 0) it is the sum of batch entry b's sixteen tile sums. -/
theorem outA_diag (c : Dev nD) (b : Fin 16) :
    outA m c (ix3 b (0 : Fin 8) (0 : Fin 128)) = ∑ i : Fin 4, ∑ j : Fin 4, Cert.Spec.tile half (Marr m c) (Rarr m c) b i j := by
  have hn : 16 * b.val + 15 < cfg0.N := by have := b.isLt; rw [show cfg0.N = 256 from N_0]; omega
  refine (outArr_apply (V1 m) c b 0 0 hn).trans ?_
  refine (outsAt_apply (V1 m) c _ hn 0 0).trans ?_
  refine (if_pos ⟨rfl, rfl⟩).trans ?_
  have e1 : (16 * b.val + 15) % 16 + 1 = 16 := by omega
  have e2 : 16 * b.val + 15 - (16 * b.val + 15) % 16 = 16 * b.val := by omega
  rw [e1, e2, sum_range16]
  refine Finset.sum_congr rfl fun i _ => Finset.sum_congr rfl fun j _ => ?_
  rw [← Nat.add_assoc]
  exact contribN_eq_tile (V1 m) c b i j

/-- The sum of the output array's entries is the specification's total at threshold one half. -/
theorem sum_outA (c : Dev nD) :
    ∑ j : S16x8x128.Idx, outA m c j
      = Cert.Spec.total half (Cert.ReferenceIdeal.ReadP.val_main_v17 (F := Ideal) (m ((c : Thread nD τ).loc main_arg1)))
          (m ((c : Thread nD τ).loc main_arg0)) := by
  rw [Cert.Spec.sum_acc (outA m c) (outA_off m c), Cert.Spec.total_eq_tiles, ← Marr_eq m c, ← Rarr_eq m c]
  exact Finset.sum_congr rfl fun b _ => outA_diag m c b

/-- THE KERNEL'S RESULT at the ideal values. -/
theorem kernel_value (c : Dev nD) :
    W3 m c (Proc.devRef .tc main_v20)
      = fun _ => Ideal.div (Cert.Spec.total half (Cert.ReferenceIdeal.ReadP.val_main_v17 (F := Ideal) (m ((c : Thread nD τ).loc main_arg1)))
          (m ((c : Thread nD τ).loc main_arg0))) (Ideal.ofBits .f32 0x4C800000#32) := by
  refine (after1_v20 (W2 m c)).trans ?_
  funext i
  have hW : W2 m c (Proc.devRef .tc main_v18) = outA m c := W2_out m c
  rw [hW]
  refine (tail_apply (outA m c) i).trans ?_
  rw [sum_outA m c]

end Cert.KernelIdeal.Hand

end
-- ==== Proof.RefValue.lean ====
/-
  The reference program's result, read at the extended reals, is the specification's total of squared errors with
  threshold zero, divided by the constant the program divides by.

  The membership table (an unsigned conversion of a one-bit array) is kept opaque: all that is used of it is that each
  entry is 0 or 1 (`memb_01`). The contraction of the table with itself over the cluster axis is the cover count
  `Spec.cov`; comparing it with zero and converting the resulting bit gives the indicator `Spec.tgt 0`; subtracting
  from the score and squaring gives `Spec.sq 0`; the sum over every index, started from zero, is `Spec.total 0`.
-/
import proofs.«123174_j446676599061_1_alg».proof.Proof.RefRead
import proofs.«123174_j446676599061_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx

/-- A one-bit word read as an unsigned number is 0 or 1. -/
private theorem uitofp_bit (b : BitVec 1) :
    FloatOps.uitofp (F := Ideal) .f32 b = 0 ∨ FloatOps.uitofp (F := Ideal) .f32 b = 1 := by
  rcases BitVec.eq_zero_or_eq_one b with h | h
  · left; subst h; show (((0#1).toNat : ℝ) : EReal) = 0; simp
  · right; subst h; show (((1#1).toNat : ℝ) : EReal) = 1; simp

/-- Every entry of the membership table is 0 or 1. -/
theorem memb_01 (x1 : (⟨S16x16, .i32⟩ : BufTy).Contents (Elt Ideal)) (x : S16x16x2048.Idx) :
    val_main_v17 (F := Ideal) x1 x = 0 ∨ val_main_v17 (F := Ideal) x1 x = 1 := by
  rw [val_main_v17_apply]
  exact uitofp_bit _

/-- The bit of a decidable proposition, read as an unsigned number, is the proposition's indicator. -/
private theorem uitofp_ofBool (P : Prop) [Decidable P] :
    FloatOps.uitofp (F := Ideal) .f32 (BitVec.ofBool (decide P)) = Cert.Spec.ind P := by
  unfold Cert.Spec.ind
  by_cases h : P
  · rw [if_pos h, decide_eq_true h]; show (((1#1).toNat : ℝ) : EReal) = 1; simp
  · rw [if_neg h, decide_eq_false h]; show (((0#1).toNat : ℝ) : EReal) = 0; simp

/-- The left operand's index of the contraction at `(b, p, q)`, step `k`, is `(b, k, p)`. -/
private theorem lidx_eq (b : Fin 16) (p q : Fin 2048) (k : Fin 16) :
    lidx_main_v18 (ix3 b p q) k = ix3 b k p :=
  funext fun a => Fin.ext (by match a with | ⟨0, _⟩ => rfl | ⟨1, _⟩ => rfl | ⟨2, _⟩ => rfl)

/-- The right operand's index of the contraction at `(b, p, q)`, step `k`, is `(b, k, q)`. -/
private theorem ridx_eq (b : Fin 16) (p q : Fin 2048) (k : Fin 16) :
    ridx_main_v18 (ix3 b p q) k = ix3 b k q :=
  funext fun a => Fin.ext (by match a with | ⟨0, _⟩ => rfl | ⟨1, _⟩ => rfl | ⟨2, _⟩ => rfl)

/-- The reference's result is the specification's total with threshold zero, divided by the number of entries. -/
theorem ref_value (x0 : (⟨S16x2048x2048, .f32⟩ : BufTy).Contents (Elt Ideal))
    (x1 : (⟨S16x16, .i32⟩ : BufTy).Contents (Elt Ideal)) (i : S_.Idx) :
    val_main_v25 (F := Ideal) x0 x1 i
      = Ideal.div (Cert.Spec.total 0 (val_main_v17 (F := Ideal) x1) x0) (Ideal.ofBits .f32 0x4C800000#32) := by
  rw [val_main_v25_apply, val_main_v24_apply, val_main_cst_0_apply, val_main_cst_1_apply,
    Ideal.hostDivf_def, Ideal.ofBits_def, Ideal.ofBits_def, Ideal.ofBits_zero_f32, zero_add]
  congr 1
  unfold Cert.Spec.total
  refine Finset.sum_congr rfl fun j _ => ?_
  obtain ⟨b, p, q, rfl⟩ : ∃ (b : Fin 16) (p q : Fin 2048), j = ix3 b p q := ⟨j 0, j 1, j 2, eq_ix3 j⟩
  rw [val_main_v23_apply, val_main_v22_apply, val_main_v21_apply, val_main_v20_apply, val_main_v19_apply,
    val_main_cst_apply, val_main_v18_apply, Ideal.mulf_def, Ideal.subf_def, Ideal.cmpf_def, Ideal.ofBits_def,
    Ideal.ofBits_zero_f32]
  generalize val_main_v17 (F := Ideal) x1 = M
  simp only [lidx_eq, ridx_eq]
  show (x0 (ix3 b p q) - FloatOps.uitofp (F := Ideal) .f32 (BitVec.ofBool (decide
      ((0 : EReal) < ∑ k : Fin 16, M (ix3 b k p) * M (ix3 b k q)))))
      * (x0 (ix3 b p q) - FloatOps.uitofp (F := Ideal) .f32 (BitVec.ofBool (decide
      ((0 : EReal) < ∑ k : Fin 16, M (ix3 b k p) * M (ix3 b k q))))) = Cert.Spec.sq 0 M x0 b p q
  rw [uitofp_ofBool]
  rfl

end Cert.ReferenceIdeal.RefValue

end
-- ==== Proof.lean ====
/-
  The claim: the three frames, the (empty) idealization ledger, and the equality of the two idealized programs' results.

  Both idealized programs compute the mean, over every batch entry b and every pair of positions (p, q), of the squared
  difference between the score at (b, p, q) and a 0/1 target: the indicator that some cluster of b holds both p and q.
  The count of such clusters is the sum over the sixteen clusters k of M (b, k, p) · M (b, k, q), where the membership
  table M holds zeros and ones, so it is a natural number. The reference asks whether it exceeds zero, the kernel whether
  it exceeds one half: for a natural number these are the same question. The reference adds all the squares up at once;
  the kernel adds them tile by tile (512 × 512 positions at a time) into an accumulator per batch entry and the host adds
  the accumulators: a regrouping of one finite sum. Both divide by the same constant. No step needs the scores to be
  finite, so the precondition is never opened.

  Each kernel program's run (it terminates, nothing faults, its arguments end unchanged, and its result is named) comes
  from the launch of its one region between two host stretches; the reference's from its host operations read back.
-/
import proofs.«123174_j446676599061_1_alg».proof.Defs
import proofs.«123174_j446676599061_1_alg».proof.Proof.Gen.Kernel
import proofs.«123174_j446676599061_1_alg».proof.Proof.Gen.KernelIdeal
import proofs.«123174_j446676599061_1_alg».proof.Proof.Gen.ReferenceIdeal
import proofs.«123174_j446676599061_1_alg».proof.Proof.Gen.Pre_finite_inputs
import proofs.«123174_j446676599061_1_alg».proof.Proof.K.Run
import proofs.«123174_j446676599061_1_alg».proof.Proof.KI.Run
import proofs.«123174_j446676599061_1_alg».proof.Proof.KI.KernelValue
import proofs.«123174_j446676599061_1_alg».proof.Proof.RefRun
import proofs.«123174_j446676599061_1_alg».proof.Proof.RefRead
import proofs.«123174_j446676599061_1_alg».proof.Proof.RefValue
import proofs.«123174_j446676599061_1_alg».proof.Proof.SpecLaws
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_p [Cert.Kernel.Facts] [Cert.Pre_finite_inputs.Facts] : Cert.frame_Kernel := fun m ρ _ =>
  (θ_run Cert.Kernel.defs _ _).mono (fun _ h c => ⟨(h c).2.1, (h c).2.2⟩) (Cert.Kernel.Hand.run_main (F := Bits) m ρ)

/-- So does the idealized kernel program. -/
theorem frame_pi [Cert.KernelIdeal.Facts] [Cert.Pre_finite_inputs.Facts] : Cert.frame_KernelIdeal := fun m ρ _ =>
  (θ_run Cert.KernelIdeal.defs _ _).mono (fun _ h c => ⟨(h c).2.1, (h c).2.2⟩) (Cert.KernelIdeal.Hand.run_main (F := Ideal) m ρ)

/-- And the idealized reference: its host operations read back, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- The two idealized programs end with the same result: the total of the squared errors over the common divisor, the
    kernel's at threshold one half, the reference's at threshold zero, which agree on a table of zeros and ones. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Ideal.div (Cert.Spec.total Cert.KernelIdeal.Hand.half
      (Cert.ReferenceIdeal.ReadP.val_main_v17 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))) (Ideal.ofBits .f32 0x4C800000#32), ?_, ?_⟩
  · exact (θ_run Cert.KernelIdeal.defs _ _).mono
      (fun _ h c => ⟨(h c).1.trans (Cert.KernelIdeal.Hand.kernel_value m c), (h c).2.1, (h c).2.2⟩)
      (Cert.KernelIdeal.Hand.run_main (F := Ideal) m ρ)
  · refine (θ_run Cert.ReferenceIdeal.defs _ _).mono (fun _ h c => ⟨(h c).1.trans ?_, (h c).2.1, (h c).2.2⟩)
      (Cert.ReferenceIdeal.ValueP.run (F := Ideal) m' ρ')
    rw [Cert.ReferenceIdeal.ReadP.val_main_v25_eq, (hagree c).1, (hagree c).2]
    funext i
    rw [Cert.ReferenceIdeal.RefValue.ref_value]
    exact congrArg (fun t => Ideal.div t (Ideal.ofBits .f32 0x4C800000#32))
      (Cert.Spec.total_half _ (Cert.ReferenceIdeal.RefValue.memb_01 _) _).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
